-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S512x512 : Shape := ⟨2, ![512, 512]⟩
abbrev S512 : Shape := ⟨1, ![512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part5 {F : FTy → Type} [FloatOps F] (main_arg18 : FVec F S512 .f32) (main_v83 : IVec S_ 1) (main_v84 : FVec F S512x512 .f32) (main_cst_32 : FVec F S_ .f32) : IVec S_ 1 :=
  let main_v85 : FVec F S512x512 .f32 := broadcastInDim S512x512 ![] bcast_S_S512x512 main_cst_32
  let main_v86 : IVec S512x512 1 := cmpf .olt main_v84 main_v85
  let main_c_33 : IVec S_ 1 := constantI S_ 1 1#1
  let main_v87 : IVec S_ 1 := (fun x v => Host.reduce IntOp.andi x v reducesTo_S512x512_S_d0_1 h_S_) main_v86 main_c_33
  let main_v88 : IVec S_ 1 := andi main_v83 main_v87
  let main_v89 : FVec F S512 .f32 := Host.absf main_arg18
  let main_cst_34 : FVec F S_ .f32 := constant S_ .f32 0x7F800000#32
  let main_v90 : FVec F S512 .f32 := broadcastInDim S512 ![] bcast_S_S512 main_cst_34
  let main_v91 : IVec S512 1 := cmpf .olt main_v89 main_v90
  let main_c_35 : IVec S_ 1 := constantI S_ 1 1#1
  let main_v92 : IVec S_ 1 := (fun x v => Host.reduce IntOp.andi x v reducesTo_S512_S_d0 h_S_) main_v91 main_c_35
  let main_v93 : IVec S_ 1 := andi main_v88 main_v92
  main_v93

def fn_part4 {F : FTy → Type} [FloatOps F] (main_arg14 : FVec F S512 .f32) (main_arg15 : FVec F S512x512 .f32) (main_arg16 : FVec F S512 .f32) (main_arg17 : FVec F S512x512 .f32) (main_arg18 : FVec F S512 .f32) (main_v63 : IVec S_ 1) (main_v67 : IVec S_ 1) : IVec S_ 1 :=
  let main_v68 : IVec S_ 1 := andi main_v63 main_v67
  let main_v69 : FVec F S512 .f32 := Host.absf main_arg14
  let main_cst_26 : FVec F S_ .f32 := constant S_ .f32 0x7F800000#32
  let main_v70 : FVec F S512 .f32 := broadcastInDim S512 ![] bcast_S_S512 main_cst_26
  let main_v71 : IVec S512 1 := cmpf .olt main_v69 main_v70
  let main_c_27 : IVec S_ 1 := constantI S_ 1 1#1
  let main_v72 : IVec S_ 1 := (fun x v => Host.reduce IntOp.andi x v reducesTo_S512_S_d0 h_S_) main_v71 main_c_27
  let main_v73 : IVec S_ 1 := andi main_v68 main_v72
  let main_v74 : FVec F S512x512 .f32 := Host.absf main_arg15
  let main_cst_28 : FVec F S_ .f32 := constant S_ .f32 0x7F800000#32
  let main_v75 : FVec F S512x512 .f32 := broadcastInDim S512x512 ![] bcast_S_S512x512 main_cst_28
  let main_v76 : IVec S512x512 1 := cmpf .olt main_v74 main_v75
  let main_c_29 : IVec S_ 1 := constantI S_ 1 1#1
  let main_v77 : IVec S_ 1 := (fun x v => Host.reduce IntOp.andi x v reducesTo_S512x512_S_d0_1 h_S_) main_v76 main_c_29
  let main_v78 : IVec S_ 1 := andi main_v73 main_v77
  let main_v79 : FVec F S512 .f32 := Host.absf main_arg16
  let main_cst_30 : FVec F S_ .f32 := constant S_ .f32 0x7F800000#32
  let main_v80 : FVec F S512 .f32 := broadcastInDim S512 ![] bcast_S_S512 main_cst_30
  let main_v81 : IVec S512 1 := cmpf .olt main_v79 main_v80
  let main_c_31 : IVec S_ 1 := constantI S_ 1 1#1
  let main_v82 : IVec S_ 1 := (fun x v => Host.reduce IntOp.andi x v reducesTo_S512_S_d0 h_S_) main_v81 main_c_31
  let main_v83 : IVec S_ 1 := andi main_v78 main_v82
  let main_v84 : FVec F S512x512 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S512 .f32 := Host.absf main_arg12
  let main_cst_22 : FVec F S_ .f32 := constant S_ .f32 0x7F800000#32
  let main_v60 : FVec F S512 .f32 := broadcastInDim S512 ![] bcast_S_S512 main_cst_22
  let main_v61 : IVec S512 1 := cmpf .olt main_v59 main_v60
  let main_c_23 : IVec S_ 1 := constantI S_ 1 1#1
  let main_v62 : IVec S_ 1 := (fun x v => Host.reduce IntOp.andi x v reducesTo_S512_S_d0 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_arg15 main_arg16 main_arg17 main_arg18 main_v63 main_v67

def fn_part2 {F : FTy → Type} [FloatOps F] (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_arg11 main_arg12 main_arg13 main_arg14 main_arg15 main_arg16 main_arg17 main_arg18 main_v48 main_v49 main_v50

def fn_part1 {F : FTy → Type} [FloatOps F] (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S32768x512 .f32) (main_arg1 : FVec F S32768x512 .f32) (main_arg2 : FVec F S32768x512 .f32) (main_arg3 : FVec F S512x512 .f32) (main_arg4 : FVec F S512 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_arg11 : FVec F S512x512 .f32) (main_arg12 : FVec F S512 .f32) (main_arg13 : FVec F S512x512 .f32) (main_arg14 : FVec F S512 .f32) (main_arg15 : FVec F S512x512 .f32) (main_arg16 : FVec F S512 .f32) (main_arg17 : FVec F S512x512 .f32) (main_arg18 : FVec F S512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x512 .f32 := Host.absf main_arg2
  let main_cst_2 : FVec F S_ .f32 := constant S_ .f32 0x7F800000#32
  let main_v10 : FVec F S32768x512 .f32 := broadcastInDim S32768x512 ![] bcast_S_S32768x512 main_cst_2
  let main_v11 : IVec S32768x512 1 := cmpf .olt main_v9 main_v10
  let main_c_3 : IVec S_ 1 := constantI S_ 1 1#1
  let main_v12 : IVec S_ 1 := (fun x v => Host.reduce IntOp.andi x v reducesTo_S32768x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S32768x512 : Shape := ⟨2, ![32768, 512]⟩
abbrev S512x512 : Shape := ⟨2, ![512, 512]⟩
abbrev S512 : Shape := ⟨1, ![512]⟩
abbrev S512x2048 : Shape := ⟨2, ![512, 2048]⟩
abbrev S2048 : Shape := ⟨1, ![2048]⟩
abbrev S1x2048 : Shape := ⟨2, ![1, 2048]⟩

abbrev nBuf : Space → Nat
  | .hbm => 31
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S512x2048, .f32⟩
  | .hbm, ⟨20, _⟩ => ⟨S512x2048, .bf16⟩
  | .hbm, ⟨21, _⟩ => ⟨S512x2048, .f32⟩
  | .hbm, ⟨22, _⟩ => ⟨S512x2048, .bf16⟩
  | .hbm, ⟨23, _⟩ => ⟨S512, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S2048, .f32⟩
  | .hbm, ⟨28, _⟩ => ⟨S1x2048, .f32⟩
  | .hbm, ⟨29, _⟩ => ⟨S32768x512, .f32⟩
  | .hbm, ⟨30, _⟩ => ⟨S32768x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10_0 : Ref sig .tc := ⟨.hbm, 29, rfl⟩
abbrev main_v10_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x512_S512x512_S512x512_S512x512_S512x2048_d1 : Shape.Concatenates [S512x512, S512x512, S512x512, S512x512] S512x2048 1
  bitsLt_bf16_f32 : FTy.bits .bf16 < FTy.bits .f32
  concatenates_S512_S512_S512_S512_S2048_d0 : Shape.Concatenates [S512, S512, S512, S512] S2048 0
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S32768x512.size a
  hwx0_0 : ∀ i : grid0.Coords, EltTy.bits .f32 = 32 ∨ (Rect.block (s := S32768x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S32768x512.size a
  hwx0_2 : ∀ i : grid0.Coords, EltTy.bits .f32 = 32 ∨ (Rect.block (s := S32768x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S32768x512.size a
  hwx0_6 : ∀ i : grid0.Coords, EltTy.bits .f32 = 32 ∨ (Rect.block (s := S32768x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S32768x512.size a
  hwx0_7 : ∀ i : grid0.Coords, EltTy.bits .f32 = 32 ∨ (Rect.block (s := S32768x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v10_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x512 : Shape := ⟨2, ![32768, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 85
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S512x512, .f32⟩
  | .hbm, ⟨12, _⟩ => ⟨S512, .f32⟩
  | .hbm, ⟨13, _⟩ => ⟨S512x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512x512, .f32⟩
  | .hbm, ⟨18, _⟩ => ⟨S512, .f32⟩
  | .hbm, ⟨19, _⟩ => ⟨S32768x512, .f32⟩
  | .hbm, ⟨20, _⟩ => ⟨S1x512, .f32⟩
  | .hbm, ⟨21, _⟩ => ⟨S32768x512, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S1x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S_, .f32⟩
  | .hbm, ⟨31, _⟩ => ⟨S32768x512, .f32⟩
  | .hbm, ⟨32, _⟩ => ⟨S32768x512, .f32⟩
  | .hbm, ⟨33, _⟩ => ⟨S_, .f32⟩
  | .hbm, ⟨34, _⟩ => ⟨S32768x512, .f32⟩
  | .hbm, ⟨35, _⟩ => ⟨S32768x512, .f32⟩
  | .hbm, ⟨36, _⟩ => ⟨S32768x512, .f32⟩
  | .hbm, ⟨37, _⟩ => ⟨S1x512, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S1x512, .f32⟩
  | .hbm, ⟨43, _⟩ => ⟨S32768x512, .f32⟩
  | .hbm, ⟨44, _⟩ => ⟨S32768x512, .f32⟩
  | .hbm, ⟨45, _⟩ => ⟨S32768x512, .f32⟩
  | .hbm, ⟨46, _⟩ => ⟨S32768x512, .f32⟩
  | .hbm, ⟨47, _⟩ => ⟨S_, .f32⟩
  | .hbm, ⟨48, _⟩ => ⟨S32768x512, .f32⟩
  | .hbm, ⟨49, _⟩ => ⟨S32768x512, .f32⟩
  | .hbm, ⟨50, _⟩ => ⟨S_, .f32⟩
  | .hbm, ⟨51, _⟩ => ⟨S32768x512, .f32⟩
  | .hbm, ⟨52, _⟩ => ⟨S32768x512, .f32⟩
  | .hbm, ⟨53, _⟩ => ⟨S32768x512, .f32⟩
  | .hbm, ⟨54, _⟩ => ⟨S1x512, .f32⟩
  | .hbm, ⟨55, _⟩ => ⟨S32768x512, .f32⟩
  | .hbm, ⟨56, _⟩ => ⟨S32768x512, .f32⟩
  | .hbm, ⟨57, _⟩ => ⟨S32768x512, .f32⟩
  | .hbm, ⟨58, _⟩ => ⟨S32768x512, .f32⟩
  | .hbm, ⟨59, _⟩ => ⟨S1x512, .f32⟩
  | .hbm, ⟨60, _⟩ => ⟨S32768x512, .f32⟩
  | .hbm, ⟨61, _⟩ => ⟨S32768x512, .f32⟩
  | .hbm, ⟨62, _⟩ => ⟨S32768x512, .f32⟩
  | .hbm, ⟨63, _⟩ => ⟨S32768x512, .f32⟩
  | .hbm, ⟨64, _⟩ => ⟨S1x512, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S1x512, .f32⟩
  | .hbm, ⟨70, _⟩ => ⟨S32768x512, .f32⟩
  | .hbm, ⟨71, _⟩ => ⟨S32768x512, .f32⟩
  | .hbm, ⟨72, _⟩ => ⟨S32768x512, .f32⟩
  | .hbm, ⟨73, _⟩ => ⟨S32768x512, .f32⟩
  | .hbm, ⟨74, _⟩ => ⟨S_, .f32⟩
  | .hbm, ⟨75, _⟩ => ⟨S32768x512, .f32⟩
  | .hbm, ⟨76, _⟩ => ⟨S32768x512, .f32⟩
  | .hbm, ⟨77, _⟩ => ⟨S_, .f32⟩
  | .hbm, ⟨78, _⟩ => ⟨S32768x512, .f32⟩
  | .hbm, ⟨79, _⟩ => ⟨S32768x512, .f32⟩
  | .hbm, ⟨80, _⟩ => ⟨S32768x512, .f32⟩
  | .hbm, ⟨81, _⟩ => ⟨S32768x512, .f32⟩
  | .hbm, ⟨82, _⟩ => ⟨S32768x512, .f32⟩
  | .hbm, ⟨83, _⟩ => ⟨S32768x512, .f32⟩
  | .hbm, ⟨84, _⟩ => ⟨S32768x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_cst_0 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_1 : Ref sig .tc := ⟨.hbm, 47, rfl⟩
abbrev main_v26 : Ref sig .tc := ⟨.hbm, 48, rfl⟩
abbrev main_v27 : Ref sig .tc := ⟨.hbm, 49, rfl⟩
abbrev main_cst_2 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_3 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  dot_S32768x512_S512x512_S32768x512_1_0_0_1_n_n_wf : DotDims.WF S32768x512 S512x512 S32768x512 [1] [0] [0] [1] [] []

variable [Facts₀]

def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.KernelFrame.lean ====
/-
  The launch side of the LSTM-cell kernel, for any float family: the host lines before the region (the two
  weight concatenations and their narrowing, the four bias sums, their concatenation and reshape) write only
  their own results, so the region finds every argument array as launched; each of the 64 grid points reads
  rows 512 t … 512 t + 511 of x, h, c and the three whole resident operands, and leaves in the two output
  blocks the body's two stored values as functions of those blocks; the body's triple, the pipeline's proof
  data, the obligation at a generic point, the run, and the frame: every argument array ends as launched.
-/
import proofs.«411716_j11845519802781_3_alg».proof.Proof.Gen.Kernel.Launch
import proofs.«411716_j11845519802781_3_alg».proof.Proof.Gen.Kernel.Skeleton
import proofs.«411716_j11845519802781_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch contents after the ten host lines. -/
abbrev V (c : Dev nD) (b : Ref sig .tc) : Buf (Elt F) ((c : Thread nD τ).loc b) :=
  StableHlo.after hostOps0 (fun b => m (c, b)) b

/-- None of the ten host lines allocates. -/
theorem hostOps0_fresh : (hostOps0 : List (HloOp τ sig (Elt F))).Forall fun op => op.fresh = ∅ := by
  simp only [List.Forall]; repeat' constructor

/-- @main is the ten host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host lines writes is found as launched: each line writes its one result. -/
local macro "entry_unwritten" : tactic => `(tactic|
  exact StableHlo.after_of_forall_not_mem _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide))))

theorem V_main_arg0 (c : Dev nD) : V m c main_arg0 = m ((c : Thread nD τ).loc main_arg0) := by entry_unwritten
theorem V_main_arg1 (c : Dev nD) : V m c main_arg1 = m ((c : Thread nD τ).loc main_arg1) := by entry_unwritten
theorem V_main_arg2 (c : Dev nD) : V m c main_arg2 = m ((c : Thread nD τ).loc main_arg2) := by entry_unwritten
theorem V_main_arg3 (c : Dev nD) : V m c main_arg3 = m ((c : Thread nD τ).loc main_arg3) := by entry_unwritten
theorem V_main_arg4 (c : Dev nD) : V m c main_arg4 = m ((c : Thread nD τ).loc main_arg4) := by entry_unwritten
theorem V_main_arg5 (c : Dev nD) : V m c main_arg5 = m ((c : Thread nD τ).loc main_arg5) := by entry_unwritten
theorem V_main_arg6 (c : Dev nD) : V m c main_arg6 = m ((c : Thread nD τ).loc main_arg6) := by entry_unwritten
theorem V_main_arg7 (c : Dev nD) : V m c main_arg7 = m ((c : Thread nD τ).loc main_arg7) := by entry_unwritten
theorem V_main_arg8 (c : Dev nD) : V m c main_arg8 = m ((c : Thread nD τ).loc main_arg8) := by entry_unwritten
theorem V_main_arg9 (c : Dev nD) : V m c main_arg9 = m ((c : Thread nD τ).loc main_arg9) := by entry_unwritten
theorem V_main_arg10 (c : Dev nD) : V m c main_arg10 = m ((c : Thread nD τ).loc main_arg10) := by entry_unwritten
theorem V_main_arg11 (c : Dev nD) : V m c main_arg11 = m ((c : Thread nD τ).loc main_arg11) := by entry_unwritten
theorem V_main_arg12 (c : Dev nD) : V m c main_arg12 = m ((c : Thread nD τ).loc main_arg12) := by entry_unwritten
theorem V_main_arg13 (c : Dev nD) : V m c main_arg13 = m ((c : Thread nD τ).loc main_arg13) := by entry_unwritten
theorem V_main_arg14 (c : Dev nD) : V m c main_arg14 = m ((c : Thread nD τ).loc main_arg14) := by entry_unwritten
theorem V_main_arg15 (c : Dev nD) : V m c main_arg15 = m ((c : Thread nD τ).loc main_arg15) := by entry_unwritten
theorem V_main_arg16 (c : Dev nD) : V m c main_arg16 = m ((c : Thread nD τ).loc main_arg16) := by entry_unwritten
theorem V_main_arg17 (c : Dev nD) : V m c main_arg17 = m ((c : Thread nD τ).loc main_arg17) := by entry_unwritten
theorem V_main_arg18 (c : Dev nD) : V m c main_arg18 = m ((c : Thread nD τ).loc main_arg18) := by entry_unwritten

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (a window whose block
    index does not move is fetched once and keeps its block), for any proof data over `V` whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The library's frame post read at the nineteen argument arrays — x, h, c as staged inputs, the weights and
    biases as buffers no window stages — each then as launched. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- A run to the library's frame post is a run that leaves the nineteen argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

/-! ## What the body leaves in the two output blocks -/

abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-- The next hidden state's block: the one whole-block store of o · tanh(c'). -/
def out0_6 (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay3 (View.ld x0 rA) (View.ld x1 rA) (View.ld x2 rA) (View.ld x3 rW) (View.ld x4 rW) (View.ld x5 rB)⟩]

/-- The next cell state's block: the one whole-block store of f · c + i · g. -/
def out0_7 (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay2 (View.ld x0 rA) (View.ld x1 rA) (View.ld x2 rA) (View.ld x3 rW) (View.ld x4 rW) (View.ld x5 rB)⟩]

/-- One whole-block store covers the block. -/
theorem cover0 (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- On whole staging buffers, the six inputs' at contents `x0 … x5` and the outputs' at anything, the body runs
    to the inputs' as they were and the outputs' at `out0_6`, `out0_7` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 : Vec F S512x512 .f32) (x1 : Vec F S512x512 .f32) (x2 : Vec F S512x512 .f32) (x3 : Vec F S512x2048 .bf16) (x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- On core `c`: the arrays as the region finds them; after the body at point `t` each input's buffer at its
    block and each output's at the body's stored value of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data gives
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates with the nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Fr

end
-- ==== Proof.KernelIdealFrame.lean ====
/-
  The launch side of the LSTM-cell kernel, for any float family: the host lines before the region (the two
  weight concatenations and their narrowing, the four bias sums, their concatenation and reshape) write only
  their own results, so the region finds every argument array as launched; each of the 64 grid points reads
  rows 512 t … 512 t + 511 of x, h, c and the three whole resident operands, and leaves in the two output
  blocks the body's two stored values as functions of those blocks; the body's triple, the pipeline's proof
  data, the obligation at a generic point, the run, and the frame: every argument array ends as launched.
-/
import proofs.«411716_j11845519802781_3_alg».proof.Proof.Gen.KernelIdeal.Launch
import proofs.«411716_j11845519802781_3_alg».proof.Proof.Gen.KernelIdeal.Skeleton
import proofs.«411716_j11845519802781_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- Core `c`'s buffers when the region is entered: the launch contents after the ten host lines. -/
abbrev V (c : Dev nD) (b : Ref sig .tc) : Buf (Elt F) ((c : Thread nD τ).loc b) :=
  StableHlo.after hostOps0 (fun b => m (c, b)) b

/-- None of the ten host lines allocates. -/
theorem hostOps0_fresh : (hostOps0 : List (HloOp τ sig (Elt F))).Forall fun op => op.fresh = ∅ := by
  simp only [List.Forall]; repeat' constructor

/-- @main is the ten host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer none of the ten host lines writes is found as launched: each line writes its one result. -/
local macro "entry_unwritten" : tactic => `(tactic|
  exact StableHlo.after_of_forall_not_mem _ _ (List.forall_iff_forall_mem.mp (by
    simp only [hostOps0, List.Forall, StableHlo.nary_writes, StableHlo.unary_writes, StableHlo.binary_writes,
      StableHlo.reshape_writes, Finset.mem_singleton]
    repeat' apply And.intro
    all_goals exact StableHlo.devRef_ne_of_ne (by decide))))

theorem V_main_arg0 (c : Dev nD) : V m c main_arg0 = m ((c : Thread nD τ).loc main_arg0) := by entry_unwritten
theorem V_main_arg1 (c : Dev nD) : V m c main_arg1 = m ((c : Thread nD τ).loc main_arg1) := by entry_unwritten
theorem V_main_arg2 (c : Dev nD) : V m c main_arg2 = m ((c : Thread nD τ).loc main_arg2) := by entry_unwritten
theorem V_main_arg3 (c : Dev nD) : V m c main_arg3 = m ((c : Thread nD τ).loc main_arg3) := by entry_unwritten
theorem V_main_arg4 (c : Dev nD) : V m c main_arg4 = m ((c : Thread nD τ).loc main_arg4) := by entry_unwritten
theorem V_main_arg5 (c : Dev nD) : V m c main_arg5 = m ((c : Thread nD τ).loc main_arg5) := by entry_unwritten
theorem V_main_arg6 (c : Dev nD) : V m c main_arg6 = m ((c : Thread nD τ).loc main_arg6) := by entry_unwritten
theorem V_main_arg7 (c : Dev nD) : V m c main_arg7 = m ((c : Thread nD τ).loc main_arg7) := by entry_unwritten
theorem V_main_arg8 (c : Dev nD) : V m c main_arg8 = m ((c : Thread nD τ).loc main_arg8) := by entry_unwritten
theorem V_main_arg9 (c : Dev nD) : V m c main_arg9 = m ((c : Thread nD τ).loc main_arg9) := by entry_unwritten
theorem V_main_arg10 (c : Dev nD) : V m c main_arg10 = m ((c : Thread nD τ).loc main_arg10) := by entry_unwritten
theorem V_main_arg11 (c : Dev nD) : V m c main_arg11 = m ((c : Thread nD τ).loc main_arg11) := by entry_unwritten
theorem V_main_arg12 (c : Dev nD) : V m c main_arg12 = m ((c : Thread nD τ).loc main_arg12) := by entry_unwritten
theorem V_main_arg13 (c : Dev nD) : V m c main_arg13 = m ((c : Thread nD τ).loc main_arg13) := by entry_unwritten
theorem V_main_arg14 (c : Dev nD) : V m c main_arg14 = m ((c : Thread nD τ).loc main_arg14) := by entry_unwritten
theorem V_main_arg15 (c : Dev nD) : V m c main_arg15 = m ((c : Thread nD τ).loc main_arg15) := by entry_unwritten
theorem V_main_arg16 (c : Dev nD) : V m c main_arg16 = m ((c : Thread nD τ).loc main_arg16) := by entry_unwritten
theorem V_main_arg17 (c : Dev nD) : V m c main_arg17 = m ((c : Thread nD τ).loc main_arg17) := by entry_unwritten
theorem V_main_arg18 (c : Dev nD) : V m c main_arg18 = m ((c : Thread nD τ).loc main_arg18) := by entry_unwritten

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, fetched there or not (a window whose block
    index does not move is fetched once and keeps its block), for any proof data over `V` whose body leaves the
    block in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame from a run -/

/-- The library's frame post read at the nineteen argument arrays — x, h, c as staged inputs, the weights and
    biases as buffers no window stages — each then as launched. -/
theorem args_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c)⟩

/-- A run to the library's frame post is a run that leaves the nineteen argument arrays as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => args_of_post m dats hA r h c) h

/-! ## What the body leaves in the two output blocks -/

abbrev rA : Rect S512x512 := Rect.unit (s := S512x512) ![0, 0] S512x512.size inb_S512x512_S512x512_0_0
abbrev rW : Rect S512x2048 := Rect.unit (s := S512x2048) ![0, 0] S512x2048.size inb_S512x2048_S512x2048_0_0
abbrev rB : Rect S1x2048 := Rect.unit (s := S1x2048) ![0, 0] S1x2048.size inb_S1x2048_S1x2048_0_0

/-- The next hidden state's block: the one whole-block store of o · tanh(c'). -/
def out0_6 (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay3 (View.ld x0 rA) (View.ld x1 rA) (View.ld x2 rA) (View.ld x3 rW) (View.ld x4 rW) (View.ld x5 rB)⟩]

/-- The next cell state's block: the one whole-block store of f · c + i · g. -/
def out0_7 (x0 : Vec F S512x512 .f32) (x1 : Vec F S512x512 .f32) (x2 : Vec F S512x512 .f32) (x3 : Vec F S512x2048 .bf16) (x4 : Vec F S512x2048 .bf16) (x5 : Vec F S1x2048 .f32) : Vec F S512x512 .f32 :=
  View.canon [⟨rA, k0_pay2 (View.ld x0 rA) (View.ld x1 rA) (View.ld x2 rA) (View.ld x3 rW) (View.ld x4 rW) (View.ld x5 rB)⟩]

/-- One whole-block store covers the block. -/
theorem cover0 (p0 : Vec F S512x512 .f32) (y : S512x512.Idx) :
    ∃ pc ∈ ([⟨rA, p0⟩] : List (View.Piece (Elt F) S512x512 .f32)), y ∈ pc.1.set :=
  View.cover_of_tiled [⟨rA, p0⟩] S512x512.size (by rfl) y

/-! ## The body's triple -/

set_option maxHeartbeats 1000000 in
/-- On whole staging buffers, the six inputs' at contents `x0 … x5` and the outputs' at anything, the body runs
    to the inputs' as they were and the outputs' at `out0_6`, `out0_7` of the inputs'. -/
theorem sound_kernel (c : Dev nD) (E : Set ℕ) (i : grid0.Coords) (arg1 : Memref sig .tc .vmem S512x512 .f32) (harg1 : arg1.IsWhole) (arg2 : Memref sig .tc .vmem S512x512 .f32) (harg2 : arg2.IsWhole) (arg3 : Memref sig .tc .vmem S512x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S512x512 .f32) (harg7 : arg7.IsWhole) (arg8 : Memref sig .tc .vmem S512x512 .f32) (harg8 : arg8.IsWhole)
    (x0 : Vec F S512x512 .f32) (x1 : Vec F S512x512 .f32) (x2 : Vec F S512x512 .f32) (x3 : Vec F S512x2048 .bf16) (x4 : Vec F S512x2048 .bf16) (x5 : Vec F S1x2048 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5) ∗ owns (c : Thread nD τ) arg8 fullShare (out0_7 x0 x1 x2 x3 x4 x5)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0 _)
  iexists _; isplitr
  swap; · iexact H7
  ipureintro
  exact View.read_writes_eq_canon _ _ _ (cover0 _)

/-! ## The pipeline's proof data -/

/-- On core `c`: the arrays as the region finds them; after the body at point `t` each input's buffer at its
    block and each output's at the body's stored value of the input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out0_6 (iblk m c 0 t) (iblk m c 1 t) (iblk m c 2 t) (iblk m c 3 t) (iblk m c 4 t) (iblk m c 5 t)
    | ⟨7, _⟩ => out0_7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out0_6 (iblk m c 0 t) (iblk m c 1 t) (iblk m c 2 t) (iblk m c 3 t) (iblk m c 4 t) (iblk m c 5 t) := by dsimp only [dats]
theorem after0_7 (c : Dev nD) (t : Fin cfg0.N) : (dats m 0 c).after 7 t = out0_7 (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_of m (dats m 0 c) (A_eq m c 0) (after0_0 m c) t d
theorem before0_1 (c : Dev nD) (t : Fin cfg0.N) (d) : (dats m 0 c).before 1 t d = iblk m c 1 t :=
  before1_of m (dats m 0 c) (A_eq m c 1) (after0_1 m c) t d
theorem before0_2 (c : Dev nD) (t : Fin cfg0.N) (d) : (dats m 0 c).before 2 t d = iblk m c 2 t :=
  before2_of m (dats m 0 c) (A_eq m c 2) (after0_2 m c) t d
theorem before0_3 (c : Dev nD) (t : Fin cfg0.N) (d) : (dats m 0 c).before 3 t d = iblk m c 3 t :=
  before3_of m (dats m 0 c) (A_eq m c 3) (after0_3 m c) t d
theorem before0_4 (c : Dev nD) (t : Fin cfg0.N) (d) : (dats m 0 c).before 4 t d = iblk m c 4 t :=
  before4_of m (dats m 0 c) (A_eq m c 4) (after0_4 m c) t d
theorem before0_5 (c : Dev nD) (t : Fin cfg0.N) (d) : (dats m 0 c).before 5 t d = iblk m c 5 t :=
  before5_of m (dats m 0 c) (A_eq m c 5) (after0_5 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, every array of the pipeline at what the proof data gives
    and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every weakly fair execution terminates with the nineteen argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Fr

end
-- ==== Proof.CellMath.lean ====
/-
  The LSTM cell on extended reals, one entry at a time. A gate's pre-activation is a row of x against a column of
  its x-weights, plus its x-bias, plus a row of h against a column of its h-weights, plus its h-bias; the next cell
  state is σ(f)·c + σ(i)·tanh(g) and the next hidden state σ(o)·tanh(c'), with σ the logistic function. Adding the
  two products first and the two biases first gives the same pre-activation: addition of extended reals is
  commutative and associative, so no finiteness is needed.
-/
import Idealize.ShloMosaic.PureOps.Ideal.Laws

noncomputable section

namespace Cert.Lstm

open Idealize.ShloMosaic

/-- A gate's pre-activation, associated as the reference adds it: ((x·Wx + bx) + h·Wh) + bh. -/
def pre (xr hr wx wh : Fin 512 → EReal) (bx bh : EReal) : EReal :=
  (((∑ k : Fin 512, xr k * wx k) + bx) + ∑ k : Fin 512, hr k * wh k) + bh

/-- The products added first and the biases first: (x·Wx + h·Wh) + (bx + bh) is the same extended real. -/
theorem pre_regroup (xr hr wx wh : Fin 512 → EReal) (bx bh : EReal) :
    ((∑ k : Fin 512, xr k * wx k) + ∑ k : Fin 512, hr k * wh k) + (bx + bh) = pre xr hr wx wh bx bh := by
  unfold pre
  generalize (∑ k : Fin 512, xr k * wx k) = a
  generalize (∑ k : Fin 512, hr k * wh k) = b
  rw [add_assoc a b, add_assoc a bx, add_assoc a, add_left_comm b bx, add_assoc bx b bh]

/-- The next cell state's entry from the forget, input and candidate pre-activations and the old cell entry. -/
def cellVal (pf pi pg c : EReal) : EReal := Ideal.logistic pf * c + Ideal.logistic pi * Ideal.tanh pg

/-- The next hidden state's entry from the output pre-activation and the next cell entry. -/
def hidVal (po cn : EReal) : EReal := Ideal.logistic po * Ideal.tanh cn

end Cert.Lstm

end
-- ==== Proof.KernelCell.lean ====
/-
  The kernel body's two stored values at the ideal instance, read at one entry (p, q) of the 512 × 512 block.
  The body forms s = x̂·Wx + ĥ·Wh + b over the block's 512 rows and all 2048 gate columns (the narrowing to bf16 is
  the identity on extended reals; a product into a zero accumulator is the plain sum over the 512 contracted
  entries; the one bias row is repeated down the rows), cuts s into the four gates' 512 columns each, and stores
  σ(f)·c + σ(i)·tanh(g) and σ(o)·tanh of it.
-/
import proofs.«411716_j11845519802781_3_alg».proof.Proof.Gen.KernelIdeal.Skeleton
import proofs.«411716_j11845519802781_3_alg».proof.Proof.CellMath
import Idealize.ShloMosaic.Lib.Pipeline.Value
import Idealize.ShloMosaic.Lib.ValueIdx
import Idealize.ShloMosaic.PureOps.Ideal.Laws

noncomputable section

namespace Cert.KernelIdeal.Cell

open Cert.KernelIdeal Cert.KernelIdeal.Gen Idealize.ShloMosaic Idealize.ShloMosaic.ValueIdx Cert.Lstm

/-! ## The matrix product at an entry -/

theorem lhs_0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A [512, 512] × [512, 2048] product into the zero accumulator, at row p and column j: the sum over the 512
    contracted entries of the row's against the column's. -/
theorem matmul_at (l : FVec Ideal S512x512 .bf16) (r : FVec Ideal S512x2048 .bf16) (p : Fin 512) (j : Fin 2048) :
    matmul dot_S512x512_S512x2048_S512x2048_1_0_0_1_n_n none l r (constant S512x2048 .f32 0x00000000#32) (ix2 p j)
      = ∑ k : Fin 512, l (ix2 p k) * r (ix2 k j) := by
  show FloatOps.matmul dot_S512x512_S512x2048_S512x2048_1_0_0_1_n_n none l r (constant S512x2048 .f32 0x00000000#32) (ix2 p j) = _
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p j) ((ValueIdx.contrEquiv1 dot_S512x512_S512x2048_S512x2048_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x2048_S512x2048_1_0_0_1_n_n.rhsIdx (ix2 p j) ((ValueIdx.contrEquiv1 dot_S512x512_S512x2048_S512x2048_1_0_0_1_n_n 512 rfl rfl).symm k) = ix2 k j := funext fun a => Fin.ext (by
    match a with
    | ⟨0, _⟩ => exact (rhs_0 _ _).trans hk
    | ⟨1, _⟩ => exact rhs_1 _ _)
  rw [el, er]

/-! ## The bias row and the gates' columns -/

/-- The one bias row repeated down the 512 rows. -/
theorem biasRow_at (v : FVec Ideal S1x2048 .f32) (p : Fin 512) (j : Fin 2048) :
    broadcastTo S512x2048 v broadcasts_S1x2048_S512x2048 (ix2 p j) = v (ix2 0 j) :=
  broadcastTo_apply v broadcasts_S1x2048_S512x2048 (ix2 p j) (ix2 0 j) (fun a => match a with
    | ⟨0, _⟩ => by show 0 = if (1 : Nat) = 1 then 0 else p.val; rw [if_pos rfl]
    | ⟨1, _⟩ => by show j.val = if (2048 : Nat) = 1 then 0 else j.val; rw [if_neg (by decide)])

/-- Gate g's column q among the 2048. -/
abbrev gcol (g : Fin 4) (q : Fin 512) : Fin 2048 := ⟨512 * g.val + q.val, by omega⟩

theorem gate0_at (s : FVec Ideal S512x2048 .f32) (p q : Fin 512) :
    extractStridedSlice S512x512 ![0, 0] s slices_S512x2048_o0_0_S512x512 (ix2 p q) = s (ix2 p (gcol 0 q)) :=
  extractStridedSlice_apply _ s slices_S512x2048_o0_0_S512x512 (ix2 p q) (ix2 p (gcol 0 q)) (fun a => match a with
    | ⟨0, _⟩ => by show p.val = 0 + p.val; omega
    | ⟨1, _⟩ => by show 512 * 0 + q.val = 0 + q.val; omega)
theorem gate1_at (s : FVec Ideal S512x2048 .f32) (p q : Fin 512) :
    extractStridedSlice S512x512 ![0, 512] s slices_S512x2048_o0_512_S512x512 (ix2 p q) = s (ix2 p (gcol 1 q)) :=
  extractStridedSlice_apply _ s slices_S512x2048_o0_512_S512x512 (ix2 p q) (ix2 p (gcol 1 q)) (fun a => match a with
    | ⟨0, _⟩ => by show p.val = 0 + p.val; omega
    | ⟨1, _⟩ => by show 512 * 1 + q.val = 512 + q.val; omega)
theorem gate2_at (s : FVec Ideal S512x2048 .f32) (p q : Fin 512) :
    extractStridedSlice S512x512 ![0, 1024] s slices_S512x2048_o0_1024_S512x512 (ix2 p q) = s (ix2 p (gcol 2 q)) :=
  extractStridedSlice_apply _ s slices_S512x2048_o0_1024_S512x512 (ix2 p q) (ix2 p (gcol 2 q)) (fun a => match a with
    | ⟨0, _⟩ => by show p.val = 0 + p.val; omega
    | ⟨1, _⟩ => by show 512 * 2 + q.val = 1024 + q.val; omega)
theorem gate3_at (s : FVec Ideal S512x2048 .f32) (p q : Fin 512) :
    extractStridedSlice S512x512 ![0, 1536] s slices_S512x2048_o0_1536_S512x512 (ix2 p q) = s (ix2 p (gcol 3 q)) :=
  extractStridedSlice_apply _ s slices_S512x2048_o0_1536_S512x512 (ix2 p q) (ix2 p (gcol 3 q)) (fun a => match a with
    | ⟨0, _⟩ => by show p.val = 0 + p.val; omega
    | ⟨1, _⟩ => by show 512 * 3 + q.val = 1536 + q.val; omega)

/-! ## The body's values -/

/-- s = x̂·Wx + ĥ·Wh + b at row p, column j. -/
theorem pay1_at (xb hb : FVec Ideal S512x512 .f32) (wx wh : FVec Ideal S512x2048 .bf16) (bb : FVec Ideal S1x2048 .f32)
    (p : Fin 512) (j : Fin 2048) :
    k0_pay1 (F := Ideal) xb hb wx wh bb (ix2 p j)
      = ((∑ k : Fin 512, xb (ix2 p k) * wx (ix2 k j)) + ∑ k : Fin 512, hb (ix2 p k) * wh (ix2 k j)) + bb (ix2 0 j) := by
  unfold k0_pay1
  rw [shapeCast_self, shapeCast_self, shapeCast_self]
  show (matmul dot_S512x512_S512x2048_S512x2048_1_0_0_1_n_n none (truncf .bf16 xb bitsLt_bf16_f32) wx (constant S512x2048 .f32 0x00000000#32) (ix2 p j)
      + matmul dot_S512x512_S512x2048_S512x2048_1_0_0_1_n_n none (truncf .bf16 hb bitsLt_bf16_f32) wh (constant S512x2048 .f32 0x00000000#32) (ix2 p j))
      + broadcastTo S512x2048 bb broadcasts_S1x2048_S512x2048 (ix2 p j) = _
  rw [matmul_at, matmul_at, biasRow_at]
  rfl

/-- The cell update over any s: σ(s_f)·c + σ(s_i)·tanh(s_g) at (p, q). -/
theorem cellOf_at (s : FVec Ideal S512x2048 .f32) (cb : FVec Ideal S512x512 .f32) (p q : Fin 512) :
    addf (mulf (logistic (extractStridedSlice S512x512 ![0, 512] s slices_S512x2048_o0_512_S512x512)) cb)
        (mulf (logistic (extractStridedSlice S512x512 ![0, 0] s slices_S512x2048_o0_0_S512x512))
          (tanh (extractStridedSlice S512x512 ![0, 1024] s slices_S512x2048_o0_1024_S512x512))) (ix2 p q)
      = cellVal (s (ix2 p (gcol 1 q))) (s (ix2 p (gcol 0 q))) (s (ix2 p (gcol 2 q))) (cb (ix2 p q)) := by
  show Ideal.logistic (extractStridedSlice S512x512 ![0, 512] s slices_S512x2048_o0_512_S512x512 (ix2 p q)) * cb (ix2 p q)
      + Ideal.logistic (extractStridedSlice S512x512 ![0, 0] s slices_S512x2048_o0_0_S512x512 (ix2 p q))
        * Ideal.tanh (extractStridedSlice S512x512 ![0, 1024] s slices_S512x2048_o0_1024_S512x512 (ix2 p q)) = _
  rw [gate0_at, gate1_at, gate2_at]
  rfl

/-- The stored next cell state at (p, q). -/
theorem pay2_at (xb hb cb : FVec Ideal S512x512 .f32) (wx wh : FVec Ideal S512x2048 .bf16) (bb : FVec Ideal S1x2048 .f32)
    (p q : Fin 512) :
    k0_pay2 (F := Ideal) xb hb cb wx wh bb (ix2 p q)
      = cellVal (k0_pay1 (F := Ideal) xb hb wx wh bb (ix2 p (gcol 1 q))) (k0_pay1 (F := Ideal) xb hb wx wh bb (ix2 p (gcol 0 q)))
          (k0_pay1 (F := Ideal) xb hb wx wh bb (ix2 p (gcol 2 q))) (cb (ix2 p q)) := by
  unfold k0_pay2
  exact cellOf_at (k0_pay1 (F := Ideal) xb hb wx wh bb) cb p q

/-- The stored next hidden state at (p, q). -/
theorem pay3_at (xb hb cb : FVec Ideal S512x512 .f32) (wx wh : FVec Ideal S512x2048 .bf16) (bb : FVec Ideal S1x2048 .f32)
    (p q : Fin 512) :
    k0_pay3 (F := Ideal) xb hb cb wx wh bb (ix2 p q)
      = hidVal (k0_pay1 (F := Ideal) xb hb wx wh bb (ix2 p (gcol 3 q))) (k0_pay2 (F := Ideal) xb hb cb wx wh bb (ix2 p q)) := by
  unfold k0_pay3
  show Ideal.logistic (extractStridedSlice S512x512 ![0, 1536] (k0_pay1 (F := Ideal) xb hb wx wh bb) slices_S512x2048_o0_1536_S512x512 (ix2 p q))
      * Ideal.tanh (k0_pay2 (F := Ideal) xb hb cb wx wh bb (ix2 p q)) = _
  rw [gate3_at]
  rfl

end Cert.KernelIdeal.Cell

end
-- ==== Proof.KernelEntry.lean ====
/-
  What the region finds and what each grid point reads, at the ideal instance. The two resident weight operands
  are the four gates' matrices side by side (gate g in columns 512 g … 512 g + 511), narrowed, which changes no
  extended real; the resident bias row is the four gates' summed biases end to end, laid out as one row. Point t
  reads rows 512 t … 512 t + 511 of x, h and c, and the three resident operands whole.
-/
import proofs.«411716_j11845519802781_3_alg».proof.Proof.KernelIdealFrame
import proofs.«411716_j11845519802781_3_alg».proof.Proof.KernelCell
import Idealize.ShloMosaic.Lib.StableHlo.Run
import Idealize.ShloMosaic.Lib.Pipeline.Value
import Idealize.ShloMosaic.Lib.ValueIdx
import Idealize.ShloMosaic.PureOps.Ideal.Laws

noncomputable section

namespace Cert.KernelIdeal.Entry

open Cert.KernelIdeal Cert.KernelIdeal.Gen Cert.KernelIdeal.Fr Cert.KernelIdeal.Cell
open Idealize.ShloMosaic Idealize.ShloMosaic.TcCoe Idealize.SL.Sem Idealize.ShloMosaic.ValueIdx

/-! ## Four pieces side by side, read at an entry -/

theorem cols0_at {α : Type} (a0 a1 a2 a3 : S512x512.Idx → α) (k q : Fin 512) :
    concatenate S512x2048 1 [⟨S512x512, a0⟩, ⟨S512x512, a1⟩, ⟨S512x512, a2⟩, ⟨S512x512, a3⟩] concatenates_S512x512_S512x512_S512x512_S512x512_S512x2048_d1 (ix2 k (gcol 0 q))
      = a0 (ix2 k q) :=
  concatenate_apply_piece (t := S512x2048) 1 [⟨S512x512, a0⟩, ⟨S512x512, a1⟩, ⟨S512x512, a2⟩, ⟨S512x512, a3⟩] concatenates_S512x512_S512x512_S512x512_S512x512_S512x2048_d1 (ix2 k (gcol 0 q)) 0 (Nat.lt_of_sub_eq_succ (m := 4) (n := 0) rfl) S512x512 a0 rfl rfl 0 rfl (ix2 k q)
    (fun b hb => match b, hb with | ⟨0, _⟩, _ => rfl | ⟨1, _⟩, hb => absurd rfl hb) (by show 0 + q.val = 512 * 0 + q.val; omega)
theorem cols1_at {α : Type} (a0 a1 a2 a3 : S512x512.Idx → α) (k q : Fin 512) :
    concatenate S512x2048 1 [⟨S512x512, a0⟩, ⟨S512x512, a1⟩, ⟨S512x512, a2⟩, ⟨S512x512, a3⟩] concatenates_S512x512_S512x512_S512x512_S512x512_S512x2048_d1 (ix2 k (gcol 1 q))
      = a1 (ix2 k q) :=
  concatenate_apply_piece (t := S512x2048) 1 [⟨S512x512, a0⟩, ⟨S512x512, a1⟩, ⟨S512x512, a2⟩, ⟨S512x512, a3⟩] concatenates_S512x512_S512x512_S512x512_S512x512_S512x2048_d1 (ix2 k (gcol 1 q)) 1 (Nat.lt_of_sub_eq_succ (m := 4) (n := 1) rfl) S512x512 a1 rfl rfl 512 rfl (ix2 k q)
    (fun b hb => match b, hb with | ⟨0, _⟩, _ => rfl | ⟨1, _⟩, hb => absurd rfl hb) (by show 512 + q.val = 512 * 1 + q.val; omega)
theorem cols2_at {α : Type} (a0 a1 a2 a3 : S512x512.Idx → α) (k q : Fin 512) :
    concatenate S512x2048 1 [⟨S512x512, a0⟩, ⟨S512x512, a1⟩, ⟨S512x512, a2⟩, ⟨S512x512, a3⟩] concatenates_S512x512_S512x512_S512x512_S512x512_S512x2048_d1 (ix2 k (gcol 2 q))
      = a2 (ix2 k q) :=
  concatenate_apply_piece (t := S512x2048) 1 [⟨S512x512, a0⟩, ⟨S512x512, a1⟩, ⟨S512x512, a2⟩, ⟨S512x512, a3⟩] concatenates_S512x512_S512x512_S512x512_S512x512_S512x2048_d1 (ix2 k (gcol 2 q)) 2 (Nat.lt_of_sub_eq_succ (m := 4) (n := 2) rfl) S512x512 a2 rfl rfl 1024 rfl (ix2 k q)
    (fun b hb => match b, hb with | ⟨0, _⟩, _ => rfl | ⟨1, _⟩, hb => absurd rfl hb) (by show 1024 + q.val = 512 * 2 + q.val; omega)
theorem cols3_at {α : Type} (a0 a1 a2 a3 : S512x512.Idx → α) (k q : Fin 512) :
    concatenate S512x2048 1 [⟨S512x512, a0⟩, ⟨S512x512, a1⟩, ⟨S512x512, a2⟩, ⟨S512x512, a3⟩] concatenates_S512x512_S512x512_S512x512_S512x512_S512x2048_d1 (ix2 k (gcol 3 q))
      = a3 (ix2 k q) :=
  concatenate_apply_piece (t := S512x2048) 1 [⟨S512x512, a0⟩, ⟨S512x512, a1⟩, ⟨S512x512, a2⟩, ⟨S512x512, a3⟩] concatenates_S512x512_S512x512_S512x512_S512x512_S512x2048_d1 (ix2 k (gcol 3 q)) 3 (Nat.lt_of_sub_eq_succ (m := 4) (n := 3) rfl) S512x512 a3 rfl rfl 1536 rfl (ix2 k q)
    (fun b hb => match b, hb with | ⟨0, _⟩, _ => rfl | ⟨1, _⟩, hb => absurd rfl hb) (by show 1536 + q.val = 512 * 3 + q.val; omega)

theorem seg0_at {α : Type} (a0 a1 a2 a3 : S512.Idx → α) (q : Fin 512) :
    concatenate S2048 0 [⟨S512, a0⟩, ⟨S512, a1⟩, ⟨S512, a2⟩, ⟨S512, a3⟩] concatenates_S512_S512_S512_S512_S2048_d0 (ix1 (gcol 0 q))
      = a0 (ix1 q) :=
  concatenate_apply_piece (t := S2048) 0 [⟨S512, a0⟩, ⟨S512, a1⟩, ⟨S512, a2⟩, ⟨S512, a3⟩] concatenates_S512_S512_S512_S512_S2048_d0 (ix1 (gcol 0 q)) 0 (Nat.lt_of_sub_eq_succ (m := 4) (n := 0) rfl) S512 a0 rfl rfl 0 rfl (ix1 q)
    (fun b hb => match b, hb with | ⟨0, _⟩, hb => absurd rfl hb) (by show 0 + q.val = 512 * 0 + q.val; omega)
theorem seg1_at {α : Type} (a0 a1 a2 a3 : S512.Idx → α) (q : Fin 512) :
    concatenate S2048 0 [⟨S512, a0⟩, ⟨S512, a1⟩, ⟨S512, a2⟩, ⟨S512, a3⟩] concatenates_S512_S512_S512_S512_S2048_d0 (ix1 (gcol 1 q))
      = a1 (ix1 q) :=
  concatenate_apply_piece (t := S2048) 0 [⟨S512, a0⟩, ⟨S512, a1⟩, ⟨S512, a2⟩, ⟨S512, a3⟩] concatenates_S512_S512_S512_S512_S2048_d0 (ix1 (gcol 1 q)) 1 (Nat.lt_of_sub_eq_succ (m := 4) (n := 1) rfl) S512 a1 rfl rfl 512 rfl (ix1 q)
    (fun b hb => match b, hb with | ⟨0, _⟩, hb => absurd rfl hb) (by show 512 + q.val = 512 * 1 + q.val; omega)
theorem seg2_at {α : Type} (a0 a1 a2 a3 : S512.Idx → α) (q : Fin 512) :
    concatenate S2048 0 [⟨S512, a0⟩, ⟨S512, a1⟩, ⟨S512, a2⟩, ⟨S512, a3⟩] concatenates_S512_S512_S512_S512_S2048_d0 (ix1 (gcol 2 q))
      = a2 (ix1 q) :=
  concatenate_apply_piece (t := S2048) 0 [⟨S512, a0⟩, ⟨S512, a1⟩, ⟨S512, a2⟩, ⟨S512, a3⟩] concatenates_S512_S512_S512_S512_S2048_d0 (ix1 (gcol 2 q)) 2 (Nat.lt_of_sub_eq_succ (m := 4) (n := 2) rfl) S512 a2 rfl rfl 1024 rfl (ix1 q)
    (fun b hb => match b, hb with | ⟨0, _⟩, hb => absurd rfl hb) (by show 1024 + q.val = 512 * 2 + q.val; omega)
theorem seg3_at {α : Type} (a0 a1 a2 a3 : S512.Idx → α) (q : Fin 512) :
    concatenate S2048 0 [⟨S512, a0⟩, ⟨S512, a1⟩, ⟨S512, a2⟩, ⟨S512, a3⟩] concatenates_S512_S512_S512_S512_S2048_d0 (ix1 (gcol 3 q))
      = a3 (ix1 q) :=
  concatenate_apply_piece (t := S2048) 0 [⟨S512, a0⟩, ⟨S512, a1⟩, ⟨S512, a2⟩, ⟨S512, a3⟩] concatenates_S512_S512_S512_S512_S2048_d0 (ix1 (gcol 3 q)) 3 (Nat.lt_of_sub_eq_succ (m := 4) (n := 3) rfl) S512 a3 rfl rfl 1536 rfl (ix1 q)
    (fun b hb => match b, hb with | ⟨0, _⟩, hb => absurd rfl hb) (by show 1536 + q.val = 512 * 3 + q.val; omega)

/-- A vector laid out as one row, read at (0, j). -/
theorem row_at {α : Type} (v : S2048.Idx → α) (j : Fin 2048) :
    shapeCast S1x2048 v shapeCasts_S2048_S1x2048 (ix2 0 j) = v (ix1 j) := by
  have e := shapeCast_addUnit_apply (n := 1) ![2048] v shapeCasts_S2048_S1x2048 (ix2 0 j)
  refine e.trans (congrArg v (funext fun a => ?_))
  match a with
  | ⟨0, _⟩ => rfl

/-! ## The host lines, in two stretches -/

section
variable {F : FTy → Type} [FloatOps F]

/-- The first eight host lines: the two weight concatenations, each narrowed, and the four bias sums. -/
def first8 : List (HloOp τ sig (Elt F)) :=
  [ StableHlo.nary ![main_arg3, main_arg7, main_arg11, main_arg15] main_v0 (fun u => concatenate S512x2048 1 [⟨S512x512, u 0⟩, ⟨S512x512, u 1⟩, ⟨S512x512, u 2⟩, ⟨S512x512, u 3⟩] concatenates_S512x512_S512x512_S512x512_S512x512_S512x2048_d1),
    StableHlo.unary main_v0 main_v1 ((truncf .bf16 · bitsLt_bf16_f32) : (⟨S512x2048, .f32⟩ : BufTy).Contents (Elt F) → (⟨S512x2048, .bf16⟩ : BufTy).Contents (Elt F)),
    StableHlo.nary ![main_arg5, main_arg9, main_arg13, main_arg17] main_v2 (fun u => concatenate S512x2048 1 [⟨S512x512, u 0⟩, ⟨S512x512, u 1⟩, ⟨S512x512, u 2⟩, ⟨S512x512, u 3⟩] concatenates_S512x512_S512x512_S512x512_S512x512_S512x2048_d1),
    StableHlo.unary main_v2 main_v3 ((truncf .bf16 · bitsLt_bf16_f32) : (⟨S512x2048, .f32⟩ : BufTy).Contents (Elt F) → (⟨S512x2048, .bf16⟩ : BufTy).Contents (Elt F)),
    StableHlo.binary main_arg4 main_arg6 main_v4 (addf : (⟨S512, .f32⟩ : BufTy).Contents (Elt F) → (⟨S512, .f32⟩ : BufTy).Contents (Elt F) → (⟨S512, .f32⟩ : BufTy).Contents (Elt F)),
    StableHlo.binary main_arg8 main_arg10 main_v5 (addf : (⟨S512, .f32⟩ : BufTy).Contents (Elt F) → (⟨S512, .f32⟩ : BufTy).Contents (Elt F) → (⟨S512, .f32⟩ : BufTy).Contents (Elt F)),
    StableHlo.binary main_arg12 main_arg14 main_v6 (addf : (⟨S512, .f32⟩ : BufTy).Contents (Elt F) → (⟨S512, .f32⟩ : BufTy).Contents (Elt F) → (⟨S512, .f32⟩ : BufTy).Contents (Elt F)),
    StableHlo.binary main_arg16 main_arg18 main_v7 (addf : (⟨S512, .f32⟩ : BufTy).Contents (Elt F) → (⟨S512, .f32⟩ : BufTy).Contents (Elt F) → (⟨S512, .f32⟩ : BufTy).Contents (Elt F)) ]

/-- The last two: the four summed biases end to end, then as one row. -/
def last2 : List (HloOp τ sig (Elt F)) :=
  [ StableHlo.nary ![main_v4, main_v5, main_v6, main_v7] main_v8 (fun u => concatenate S2048 0 [⟨S512, u 0⟩, ⟨S512, u 1⟩, ⟨S512, u 2⟩, ⟨S512, u 3⟩] concatenates_S512_S512_S512_S512_S2048_d0),
    StableHlo.reshape main_v8 main_v9 rfl shapeCasts_S2048_S1x2048 ]

theorem hostOps0_split : (hostOps0 : List (HloOp τ sig (Elt F))) = first8 ++ last2 := rfl

end

variable (m : (ℓ : Loc nD τ sig) → Buf (Elt Ideal) ℓ)

/-- The summed biases of gate g after the first eight lines. -/
theorem sum4 (c : Dev nD) : @Eq (FVec Ideal S512 .f32) (StableHlo.after (first8 (F := Ideal)) (fun b => m (c, b)) (Proc.devRef .tc main_v4)) (addf (F := Ideal) (m ((c : Thread nD τ).loc main_arg4)) (m ((c : Thread nD τ).loc main_arg6))) := by
  unfold first8; after_results
theorem sum5 (c : Dev nD) : @Eq (FVec Ideal S512 .f32) (StableHlo.after (first8 (F := Ideal)) (fun b => m (c, b)) (Proc.devRef .tc main_v5)) (addf (F := Ideal) (m ((c : Thread nD τ).loc main_arg8)) (m ((c : Thread nD τ).loc main_arg10))) := by
  unfold first8; after_results
theorem sum6 (c : Dev nD) : @Eq (FVec Ideal S512 .f32) (StableHlo.after (first8 (F := Ideal)) (fun b => m (c, b)) (Proc.devRef .tc main_v6)) (addf (F := Ideal) (m ((c : Thread nD τ).loc main_arg12)) (m ((c : Thread nD τ).loc main_arg14))) := by
  unfold first8; after_results
theorem sum7 (c : Dev nD) : @Eq (FVec Ideal S512 .f32) (StableHlo.after (first8 (F := Ideal)) (fun b => m (c, b)) (Proc.devRef .tc main_v7)) (addf (F := Ideal) (m ((c : Thread nD τ).loc main_arg16)) (m ((c : Thread nD τ).loc main_arg18))) := by
  unfold first8; after_results

/-! ## The resident operands as the region finds them -/

theorem wx_entry (c : Dev nD) : @Eq (FVec Ideal S512x2048 .bf16) (V m c main_v1)
    (truncf (F := Ideal) .bf16 (concatenate S512x2048 1 [⟨S512x512, (m ((c : Thread nD τ).loc main_arg3))⟩, ⟨S512x512, (m ((c : Thread nD τ).loc main_arg7))⟩, ⟨S512x512, (m ((c : Thread nD τ).loc main_arg11))⟩, ⟨S512x512, (m ((c : Thread nD τ).loc main_arg15))⟩] concatenates_S512x512_S512x512_S512x512_S512x512_S512x2048_d1) bitsLt_bf16_f32) := by
  dsimp only [V, hostOps0]; after_results; rfl

theorem wh_entry (c : Dev nD) : @Eq (FVec Ideal S512x2048 .bf16) (V m c main_v3)
    (truncf (F := Ideal) .bf16 (concatenate S512x2048 1 [⟨S512x512, (m ((c : Thread nD τ).loc main_arg5))⟩, ⟨S512x512, (m ((c : Thread nD τ).loc main_arg9))⟩, ⟨S512x512, (m ((c : Thread nD τ).loc main_arg13))⟩, ⟨S512x512, (m ((c : Thread nD τ).loc main_arg17))⟩] concatenates_S512x512_S512x512_S512x512_S512x512_S512x2048_d1) bitsLt_bf16_f32) := by
  dsimp only [V, hostOps0]; after_results; rfl

theorem b_entry (c : Dev nD) : @Eq (FVec Ideal S1x2048 .f32) (V m c main_v9)
    (shapeCast S1x2048 (concatenate S2048 0 [⟨S512, addf (F := Ideal) (m ((c : Thread nD τ).loc main_arg4)) (m ((c : Thread nD τ).loc main_arg6))⟩, ⟨S512, addf (F := Ideal) (m ((c : Thread nD τ).loc main_arg8)) (m ((c : Thread nD τ).loc main_arg10))⟩, ⟨S512, addf (F := Ideal) (m ((c : Thread nD τ).loc main_arg12)) (m ((c : Thread nD τ).loc main_arg14))⟩, ⟨S512, addf (F := Ideal) (m ((c : Thread nD τ).loc main_arg16)) (m ((c : Thread nD τ).loc main_arg18))⟩] concatenates_S512_S512_S512_S512_S2048_d0) shapeCasts_S2048_S1x2048) := by
  rw [← sum4 m c, ← sum5 m c, ← sum6 m c, ← sum7 m c]
  show StableHlo.after (hostOps0 : List (HloOp τ sig (Elt Ideal))) (fun b => m (c, b)) (Proc.devRef .tc main_v9) = _
  rw [hostOps0_split, StableHlo.after_append]
  generalize StableHlo.after (first8 (F := Ideal)) (fun b => m (c, b)) = W
  unfold last2; after_results; rfl

end Cert.KernelIdeal.Entry

end
-- ==== Proof.RefCell.lean ====
/-
  The reference on whole arrays, gate by gate, and read at one entry (r, q). Each gate is x·Wx + bx + h·Wh + bh
  with the two biases repeated down the rows; the logistic function is spelt 1 / (1 + e^(−z)), which on extended
  reals is the logistic function itself (e^(+∞) = +∞ and 1 / +∞ = 0 included); the next cell state is
  σ(f)·c + σ(i)·tanh(g) and the next hidden state σ(o)·tanh of it. At an entry the four gates are the four
  pre-activations of row r of x and h against column q of the gate's weights.
-/
import proofs.«411716_j11845519802781_3_alg».proof.Proof.Gen.ReferenceIdeal.Read
import proofs.«411716_j11845519802781_3_alg».proof.Proof.CellMath
import Idealize.ShloMosaic.Lib.IdealHost

noncomputable section

namespace Cert.ReferenceIdeal.Cell

open Cert.ReferenceIdeal Cert.ReferenceIdeal.Gen Cert.ReferenceIdeal.Read Idealize.ShloMosaic Idealize.ShloMosaic.ValueIdx Cert.Lstm

variable {F : FTy → Type} [FloatOps F]

/-- One gate's pre-activation over the whole batch. -/
def gate (x h : (⟨S32768x512, .f32⟩ : BufTy).Contents (Elt F)) (Wx : (⟨S512x512, .f32⟩ : BufTy).Contents (Elt F)) (bx : (⟨S512, .f32⟩ : BufTy).Contents (Elt F)) (Wh : (⟨S512x512, .f32⟩ : BufTy).Contents (Elt F)) (bh : (⟨S512, .f32⟩ : BufTy).Contents (Elt F)) : (⟨S32768x512, .f32⟩ : BufTy).Contents (Elt F) :=
  addf (addf (addf (val_main_v0 (F := F) x Wx) (val_main_v2 (F := F) bx)) (val_main_v0 (F := F) h Wh)) (val_main_v2 (F := F) bh)

/-- The logistic function as the reference spells it: 1 / (1 + e^(−z)), the ones a constant repeated. -/
def sig (z : (⟨S32768x512, .f32⟩ : BufTy).Contents (Elt F)) : (⟨S32768x512, .f32⟩ : BufTy).Contents (Elt F) :=
  Host.divf (val_main_v11 (F := F)) (addf (val_main_v11 (F := F)) (Host.exp (Host.negf z)))

/-- The next cell state over the whole batch: σ(f)·c + σ(i)·tanh(g). -/
def cellNext (x h c : (⟨S32768x512, .f32⟩ : BufTy).Contents (Elt F)) (W3 : (⟨S512x512, .f32⟩ : BufTy).Contents (Elt F)) (b4 : (⟨S512, .f32⟩ : BufTy).Contents (Elt F)) (W5 : (⟨S512x512, .f32⟩ : BufTy).Contents (Elt F)) (b6 : (⟨S512, .f32⟩ : BufTy).Contents (Elt F)) (W7 : (⟨S512x512, .f32⟩ : BufTy).Contents (Elt F)) (b8 : (⟨S512, .f32⟩ : BufTy).Contents (Elt F)) (W9 : (⟨S512x512, .f32⟩ : BufTy).Contents (Elt F)) (b10 : (⟨S512, .f32⟩ : BufTy).Contents (Elt F)) (W11 : (⟨S512x512, .f32⟩ : BufTy).Contents (Elt F)) (b12 : (⟨S512, .f32⟩ : BufTy).Contents (Elt F)) (W13 : (⟨S512x512, .f32⟩ : BufTy).Contents (Elt F)) (b14 : (⟨S512, .f32⟩ : BufTy).Contents (Elt F)) : (⟨S32768x512, .f32⟩ : BufTy).Contents (Elt F) :=
  addf (mulf (sig (gate x h W7 b8 W9 b10)) c) (mulf (sig (gate x h W3 b4 W5 b6)) (Host.tanh (gate x h W11 b12 W13 b14)))

/-- The next hidden state over the whole batch: σ(o)·tanh(c'). -/
def hiddenNext (x h c : (⟨S32768x512, .f32⟩ : BufTy).Contents (Elt F)) (W3 : (⟨S512x512, .f32⟩ : BufTy).Contents (Elt F)) (b4 : (⟨S512, .f32⟩ : BufTy).Contents (Elt F)) (W5 : (⟨S512x512, .f32⟩ : BufTy).Contents (Elt F)) (b6 : (⟨S512, .f32⟩ : BufTy).Contents (Elt F)) (W7 : (⟨S512x512, .f32⟩ : BufTy).Contents (Elt F)) (b8 : (⟨S512, .f32⟩ : BufTy).Contents (Elt F)) (W9 : (⟨S512x512, .f32⟩ : BufTy).Contents (Elt F)) (b10 : (⟨S512, .f32⟩ : BufTy).Contents (Elt F)) (W11 : (⟨S512x512, .f32⟩ : BufTy).Contents (Elt F)) (b12 : (⟨S512, .f32⟩ : BufTy).Contents (Elt F)) (W13 : (⟨S512x512, .f32⟩ : BufTy).Contents (Elt F)) (b14 : (⟨S512, .f32⟩ : BufTy).Contents (Elt F)) (W15 : (⟨S512x512, .f32⟩ : BufTy).Contents (Elt F)) (b16 : (⟨S512, .f32⟩ : BufTy).Contents (Elt F)) (W17 : (⟨S512x512, .f32⟩ : BufTy).Contents (Elt F)) (b18 : (⟨S512, .f32⟩ : BufTy).Contents (Elt F)) : (⟨S32768x512, .f32⟩ : BufTy).Contents (Elt F) :=
  mulf (sig (gate x h W15 b16 W17 b18)) (Host.tanh (cellNext x h c W3 b4 W5 b6 W7 b8 W9 b10 W11 b12 W13 b14))

/-- The term the reference's run states for its second result is `cellNext`. -/
theorem cellNext_eq (x h c : (⟨S32768x512, .f32⟩ : BufTy).Contents (Elt F)) (W3 : (⟨S512x512, .f32⟩ : BufTy).Contents (Elt F)) (b4 : (⟨S512, .f32⟩ : BufTy).Contents (Elt F)) (W5 : (⟨S512x512, .f32⟩ : BufTy).Contents (Elt F)) (b6 : (⟨S512, .f32⟩ : BufTy).Contents (Elt F)) (W7 : (⟨S512x512, .f32⟩ : BufTy).Contents (Elt F)) (b8 : (⟨S512, .f32⟩ : BufTy).Contents (Elt F)) (W9 : (⟨S512x512, .f32⟩ : BufTy).Contents (Elt F)) (b10 : (⟨S512, .f32⟩ : BufTy).Contents (Elt F)) (W11 : (⟨S512x512, .f32⟩ : BufTy).Contents (Elt F)) (b12 : (⟨S512, .f32⟩ : BufTy).Contents (Elt F)) (W13 : (⟨S512x512, .f32⟩ : BufTy).Contents (Elt F)) (b14 : (⟨S512, .f32⟩ : BufTy).Contents (Elt F)) :
    val_main_v57 (F := F) x h c W3 b4 W5 b6 W7 b8 W9 b10 W11 b12 W13 b14 = cellNext x h c W3 b4 W5 b6 W7 b8 W9 b10 W11 b12 W13 b14 := rfl

/-- The term the reference's run states for its first result is `hiddenNext`. -/
theorem hiddenNext_eq (x h c : (⟨S32768x512, .f32⟩ : BufTy).Contents (Elt F)) (W3 : (⟨S512x512, .f32⟩ : BufTy).Contents (Elt F)) (b4 : (⟨S512, .f32⟩ : BufTy).Contents (Elt F)) (W5 : (⟨S512x512, .f32⟩ : BufTy).Contents (Elt F)) (b6 : (⟨S512, .f32⟩ : BufTy).Contents (Elt F)) (W7 : (⟨S512x512, .f32⟩ : BufTy).Contents (Elt F)) (b8 : (⟨S512, .f32⟩ : BufTy).Contents (Elt F)) (W9 : (⟨S512x512, .f32⟩ : BufTy).Contents (Elt F)) (b10 : (⟨S512, .f32⟩ : BufTy).Contents (Elt F)) (W11 : (⟨S512x512, .f32⟩ : BufTy).Contents (Elt F)) (b12 : (⟨S512, .f32⟩ : BufTy).Contents (Elt F)) (W13 : (⟨S512x512, .f32⟩ : BufTy).Contents (Elt F)) (b14 : (⟨S512, .f32⟩ : BufTy).Contents (Elt F)) (W15 : (⟨S512x512, .f32⟩ : BufTy).Contents (Elt F)) (b16 : (⟨S512, .f32⟩ : BufTy).Contents (Elt F)) (W17 : (⟨S512x512, .f32⟩ : BufTy).Contents (Elt F)) (b18 : (⟨S512, .f32⟩ : BufTy).Contents (Elt F)) :
    val_main_v59 (F := F) x h c W3 b4 W5 b6 W7 b8 W9 b10 W11 b12 W13 b14 W15 b16 W17 b18 = hiddenNext x h c W3 b4 W5 b6 W7 b8 W9 b10 W11 b12 W13 b14 W15 b16 W17 b18 := rfl

/-! ## At an entry, on extended reals -/

theorem gate_at (x h : (⟨S32768x512, .f32⟩ : BufTy).Contents (Elt Ideal)) (Wx : (⟨S512x512, .f32⟩ : BufTy).Contents (Elt Ideal)) (bx : (⟨S512, .f32⟩ : BufTy).Contents (Elt Ideal)) (Wh : (⟨S512x512, .f32⟩ : BufTy).Contents (Elt Ideal)) (bh : (⟨S512, .f32⟩ : BufTy).Contents (Elt Ideal)) (r : Fin 32768) (q : Fin 512) :
    gate (F := Ideal) x h Wx bx Wh bh (ix2 r q)
      = pre (fun k => x (ix2 r k)) (fun k => h (ix2 r k)) (fun k => Wx (ix2 k q)) (fun k => Wh (ix2 k q)) (bx (ix1 q)) (bh (ix1 q)) := by
  have el : ∀ k : Fin 512, lidx_main_v0 (ix2 r q) k = ix2 r k := fun k => funext fun a => Fin.ext (by
    match a with
    | ⟨0, _⟩ => rfl
    | ⟨1, _⟩ => rfl)
  have er : ∀ k : Fin 512, ridx_main_v0 (ix2 r q) k = ix2 k q := fun k => funext fun a => Fin.ext (by
    match a with
    | ⟨0, _⟩ => rfl
    | ⟨1, _⟩ => rfl)
  have eb : idx_main_v1 (idx_main_v2 (ix2 r q)) = ix1 q := funext fun a => Fin.ext (by
    match a with
    | ⟨0, _⟩ => rfl)
  unfold gate pre
  show ((val_main_v0 (F := Ideal) x Wx (ix2 r q) + val_main_v2 (F := Ideal) bx (ix2 r q)) + val_main_v0 (F := Ideal) h Wh (ix2 r q))
      + val_main_v2 (F := Ideal) bh (ix2 r q) = _
  rw [val_main_v0_apply, val_main_v0_apply, val_main_v2_apply, val_main_v2_apply, val_main_v1_apply, val_main_v1_apply, eb]
  simp only [el, er]

theorem sig_at (z : (⟨S32768x512, .f32⟩ : BufTy).Contents (Elt Ideal)) (i : S32768x512.Idx) :
    sig (F := Ideal) z i = Ideal.logistic (z i) := by
  unfold sig
  show Ideal.div (val_main_v11 (F := Ideal) i) (val_main_v11 (F := Ideal) i + Ideal.exp (-(z i))) = _
  rw [val_main_v11_apply, val_main_cst_apply]
  show Ideal.div (Ideal.ofBits .f32 0x3F800000#32) (Ideal.ofBits .f32 0x3F800000#32 + Ideal.exp (-(z i))) = _
  rw [Ideal.ofBits_one_f32]
  rfl

theorem cellNext_at (x h c : (⟨S32768x512, .f32⟩ : BufTy).Contents (Elt Ideal)) (W3 : (⟨S512x512, .f32⟩ : BufTy).Contents (Elt Ideal)) (b4 : (⟨S512, .f32⟩ : BufTy).Contents (Elt Ideal)) (W5 : (⟨S512x512, .f32⟩ : BufTy).Contents (Elt Ideal)) (b6 : (⟨S512, .f32⟩ : BufTy).Contents (Elt Ideal)) (W7 : (⟨S512x512, .f32⟩ : BufTy).Contents (Elt Ideal)) (b8 : (⟨S512, .f32⟩ : BufTy).Contents (Elt Ideal)) (W9 : (⟨S512x512, .f32⟩ : BufTy).Contents (Elt Ideal)) (b10 : (⟨S512, .f32⟩ : BufTy).Contents (Elt Ideal)) (W11 : (⟨S512x512, .f32⟩ : BufTy).Contents (Elt Ideal)) (b12 : (⟨S512, .f32⟩ : BufTy).Contents (Elt Ideal)) (W13 : (⟨S512x512, .f32⟩ : BufTy).Contents (Elt Ideal)) (b14 : (⟨S512, .f32⟩ : BufTy).Contents (Elt Ideal)) (r : Fin 32768) (q : Fin 512) :
    cellNext (F := Ideal) x h c W3 b4 W5 b6 W7 b8 W9 b10 W11 b12 W13 b14 (ix2 r q)
      = cellVal (gate (F := Ideal) x h W7 b8 W9 b10 (ix2 r q)) (gate (F := Ideal) x h W3 b4 W5 b6 (ix2 r q))
          (gate (F := Ideal) x h W11 b12 W13 b14 (ix2 r q)) (c (ix2 r q)) := by
  unfold cellNext cellVal
  show sig (F := Ideal) (gate x h W7 b8 W9 b10) (ix2 r q) * c (ix2 r q)
      + sig (F := Ideal) (gate x h W3 b4 W5 b6) (ix2 r q) * Ideal.tanh (gate (F := Ideal) x h W11 b12 W13 b14 (ix2 r q)) = _
  rw [sig_at, sig_at]

theorem hiddenNext_at (x h c : (⟨S32768x512, .f32⟩ : BufTy).Contents (Elt Ideal)) (W3 : (⟨S512x512, .f32⟩ : BufTy).Contents (Elt Ideal)) (b4 : (⟨S512, .f32⟩ : BufTy).Contents (Elt Ideal)) (W5 : (⟨S512x512, .f32⟩ : BufTy).Contents (Elt Ideal)) (b6 : (⟨S512, .f32⟩ : BufTy).Contents (Elt Ideal)) (W7 : (⟨S512x512, .f32⟩ : BufTy).Contents (Elt Ideal)) (b8 : (⟨S512, .f32⟩ : BufTy).Contents (Elt Ideal)) (W9 : (⟨S512x512, .f32⟩ : BufTy).Contents (Elt Ideal)) (b10 : (⟨S512, .f32⟩ : BufTy).Contents (Elt Ideal)) (W11 : (⟨S512x512, .f32⟩ : BufTy).Contents (Elt Ideal)) (b12 : (⟨S512, .f32⟩ : BufTy).Contents (Elt Ideal)) (W13 : (⟨S512x512, .f32⟩ : BufTy).Contents (Elt Ideal)) (b14 : (⟨S512, .f32⟩ : BufTy).Contents (Elt Ideal)) (W15 : (⟨S512x512, .f32⟩ : BufTy).Contents (Elt Ideal)) (b16 : (⟨S512, .f32⟩ : BufTy).Contents (Elt Ideal)) (W17 : (⟨S512x512, .f32⟩ : BufTy).Contents (Elt Ideal)) (b18 : (⟨S512, .f32⟩ : BufTy).Contents (Elt Ideal)) (r : Fin 32768) (q : Fin 512) :
    hiddenNext (F := Ideal) x h c W3 b4 W5 b6 W7 b8 W9 b10 W11 b12 W13 b14 W15 b16 W17 b18 (ix2 r q)
      = hidVal (gate (F := Ideal) x h W15 b16 W17 b18 (ix2 r q)) (cellNext (F := Ideal) x h c W3 b4 W5 b6 W7 b8 W9 b10 W11 b12 W13 b14 (ix2 r q)) := by
  unfold hiddenNext hidVal
  show sig (F := Ideal) (gate x h W15 b16 W17 b18) (ix2 r q) * Ideal.tanh (cellNext (F := Ideal) x h c W3 b4 W5 b6 W7 b8 W9 b10 W11 b12 W13 b14 (ix2 r q)) = _
  rw [sig_at]

end Cert.ReferenceIdeal.Cell

end
-- ==== Proof.CellBridge.lean ====
/-
  One entry of the kernel's block against the same entry of the reference's arrays. If row p of the x- and h-blocks
  is row r of x and h, the c-block's entry (p, q) is c's entry (r, q), column 512 g + q of each resident weight
  operand is column q of gate g's matrix, and entry 512 g + q of the bias row is gate g's two biases summed, then
  the body's s at (p, 512 g + q) is gate g's pre-activation at (r, q) — the sums regrouped, which extended-real
  addition allows — and so the two stored values are the reference's next cell and hidden states at (r, q).
-/
import proofs.«411716_j11845519802781_3_alg».proof.Proof.KernelCell
import proofs.«411716_j11845519802781_3_alg».proof.Proof.RefCell

noncomputable section

namespace Cert.Bridge

open Cert.KernelIdeal Cert.KernelIdeal.Gen Cert.KernelIdeal.Cell Idealize.ShloMosaic Idealize.ShloMosaic.ValueIdx Cert.Lstm

/-- The body's s at (p, j) is a pre-activation, given what row p of the two blocks, column j of the two weight
    operands and entry j of the bias row are. -/
theorem s_eq_pre (xb hb : FVec Ideal S512x512 .f32) (wx wh : FVec Ideal S512x2048 .bf16) (bb : FVec Ideal S1x2048 .f32)
    (p : Fin 512) (j : Fin 2048) (xr hr wxc whc : Fin 512 → EReal) (bx bh : EReal)
    (hx : ∀ k : Fin 512, xb (ix2 p k) = xr k) (hh : ∀ k : Fin 512, hb (ix2 p k) = hr k)
    (hwx : ∀ k : Fin 512, wx (ix2 k j) = wxc k) (hwh : ∀ k : Fin 512, wh (ix2 k j) = whc k) (hbb : bb (ix2 0 j) = bx + bh) :
    k0_pay1 (F := Ideal) xb hb wx wh bb (ix2 p j) = pre xr hr wxc whc bx bh := by
  rw [pay1_at, hbb, ← pre_regroup]
  have e1 : (∑ k : Fin 512, xb (ix2 p k) * wx (ix2 k j)) = ∑ k : Fin 512, xr k * wxc k :=
    Finset.sum_congr rfl fun k _ => by rw [hx k, hwx k]
  have e2 : (∑ k : Fin 512, hb (ix2 p k) * wh (ix2 k j)) = ∑ k : Fin 512, hr k * whc k :=
    Finset.sum_congr rfl fun k _ => by rw [hh k, hwh k]
  rw [e1, e2]

/-- The two stored values at (p, q) are the reference's next cell and hidden states at (r, q). -/
theorem stored_eq (x h cc : (⟨Cert.ReferenceIdeal.S32768x512, .f32⟩ : BufTy).Contents (Elt Ideal)) (W3 : (⟨Cert.ReferenceIdeal.S512x512, .f32⟩ : BufTy).Contents (Elt Ideal)) (b4 : (⟨Cert.ReferenceIdeal.S512, .f32⟩ : BufTy).Contents (Elt Ideal)) (W5 : (⟨Cert.ReferenceIdeal.S512x512, .f32⟩ : BufTy).Contents (Elt Ideal)) (b6 : (⟨Cert.ReferenceIdeal.S512, .f32⟩ : BufTy).Contents (Elt Ideal)) (W7 : (⟨Cert.ReferenceIdeal.S512x512, .f32⟩ : BufTy).Contents (Elt Ideal)) (b8 : (⟨Cert.ReferenceIdeal.S512, .f32⟩ : BufTy).Contents (Elt Ideal)) (W9 : (⟨Cert.ReferenceIdeal.S512x512, .f32⟩ : BufTy).Contents (Elt Ideal)) (b10 : (⟨Cert.ReferenceIdeal.S512, .f32⟩ : BufTy).Contents (Elt Ideal)) (W11 : (⟨Cert.ReferenceIdeal.S512x512, .f32⟩ : BufTy).Contents (Elt Ideal)) (b12 : (⟨Cert.ReferenceIdeal.S512, .f32⟩ : BufTy).Contents (Elt Ideal)) (W13 : (⟨Cert.ReferenceIdeal.S512x512, .f32⟩ : BufTy).Contents (Elt Ideal)) (b14 : (⟨Cert.ReferenceIdeal.S512, .f32⟩ : BufTy).Contents (Elt Ideal)) (W15 : (⟨Cert.ReferenceIdeal.S512x512, .f32⟩ : BufTy).Contents (Elt Ideal)) (b16 : (⟨Cert.ReferenceIdeal.S512, .f32⟩ : BufTy).Contents (Elt Ideal)) (W17 : (⟨Cert.ReferenceIdeal.S512x512, .f32⟩ : BufTy).Contents (Elt Ideal)) (b18 : (⟨Cert.ReferenceIdeal.S512, .f32⟩ : BufTy).Contents (Elt Ideal))
    (xb hb cb : FVec Ideal S512x512 .f32) (wx wh : FVec Ideal S512x2048 .bf16) (bb : FVec Ideal S1x2048 .f32)
    (r : Fin 32768) (p q : Fin 512)
    (hx : ∀ k : Fin 512, xb (ix2 p k) = x (ix2 r k)) (hh : ∀ k : Fin 512, hb (ix2 p k) = h (ix2 r k)) (hc : cb (ix2 p q) = cc (ix2 r q))
    (hwx0 : ∀ k : Fin 512, wx (ix2 k (gcol 0 q)) = W3 (ix2 k q)) (hwh0 : ∀ k : Fin 512, wh (ix2 k (gcol 0 q)) = W5 (ix2 k q))
    (hb0 : bb (ix2 0 (gcol 0 q)) = b4 (ix1 q) + b6 (ix1 q))
    (hwx1 : ∀ k : Fin 512, wx (ix2 k (gcol 1 q)) = W7 (ix2 k q)) (hwh1 : ∀ k : Fin 512, wh (ix2 k (gcol 1 q)) = W9 (ix2 k q))
    (hb1 : bb (ix2 0 (gcol 1 q)) = b8 (ix1 q) + b10 (ix1 q))
    (hwx2 : ∀ k : Fin 512, wx (ix2 k (gcol 2 q)) = W11 (ix2 k q)) (hwh2 : ∀ k : Fin 512, wh (ix2 k (gcol 2 q)) = W13 (ix2 k q))
    (hb2 : bb (ix2 0 (gcol 2 q)) = b12 (ix1 q) + b14 (ix1 q))
    (hwx3 : ∀ k : Fin 512, wx (ix2 k (gcol 3 q)) = W15 (ix2 k q)) (hwh3 : ∀ k : Fin 512, wh (ix2 k (gcol 3 q)) = W17 (ix2 k q))
    (hb3 : bb (ix2 0 (gcol 3 q)) = b16 (ix1 q) + b18 (ix1 q)) :
    k0_pay2 (F := Ideal) xb hb cb wx wh bb (ix2 p q) = Cert.ReferenceIdeal.Cell.cellNext (F := Ideal) x h cc W3 b4 W5 b6 W7 b8 W9 b10 W11 b12 W13 b14 (ix2 r q)
    ∧ k0_pay3 (F := Ideal) xb hb cb wx wh bb (ix2 p q) = Cert.ReferenceIdeal.Cell.hiddenNext (F := Ideal) x h cc W3 b4 W5 b6 W7 b8 W9 b10 W11 b12 W13 b14 W15 b16 W17 b18 (ix2 r q) := by
  have g0 := s_eq_pre xb hb wx wh bb p (gcol 0 q) (fun k => x (ix2 r k)) (fun k => h (ix2 r k)) (fun k => W3 (ix2 k q)) (fun k => W5 (ix2 k q)) (b4 (ix1 q)) (b6 (ix1 q)) hx hh hwx0 hwh0 hb0
  have g1 := s_eq_pre xb hb wx wh bb p (gcol 1 q) (fun k => x (ix2 r k)) (fun k => h (ix2 r k)) (fun k => W7 (ix2 k q)) (fun k => W9 (ix2 k q)) (b8 (ix1 q)) (b10 (ix1 q)) hx hh hwx1 hwh1 hb1
  have g2 := s_eq_pre xb hb wx wh bb p (gcol 2 q) (fun k => x (ix2 r k)) (fun k => h (ix2 r k)) (fun k => W11 (ix2 k q)) (fun k => W13 (ix2 k q)) (b12 (ix1 q)) (b14 (ix1 q)) hx hh hwx2 hwh2 hb2
  have g3 := s_eq_pre xb hb wx wh bb p (gcol 3 q) (fun k => x (ix2 r k)) (fun k => h (ix2 r k)) (fun k => W15 (ix2 k q)) (fun k => W17 (ix2 k q)) (b16 (ix1 q)) (b18 (ix1 q)) hx hh hwx3 hwh3 hb3
  have hcell : k0_pay2 (F := Ideal) xb hb cb wx wh bb (ix2 p q) = Cert.ReferenceIdeal.Cell.cellNext (F := Ideal) x h cc W3 b4 W5 b6 W7 b8 W9 b10 W11 b12 W13 b14 (ix2 r q) := by
    rw [pay2_at, Cert.ReferenceIdeal.Cell.cellNext_at, Cert.ReferenceIdeal.Cell.gate_at, Cert.ReferenceIdeal.Cell.gate_at,
      Cert.ReferenceIdeal.Cell.gate_at, g0, g1, g2, hc]
  refine ⟨hcell, ?_⟩
  rw [pay3_at, Cert.ReferenceIdeal.Cell.hiddenNext_at, Cert.ReferenceIdeal.Cell.gate_at, g3, hcell]

end Cert.Bridge

end
-- ==== Proof.KernelValue.lean ====
/-
  The kernel's two result arrays after the run, at the ideal instance: what point t writes back is block t of the
  reference's next hidden state and next cell state as functions of the argument arrays, the 64 blocks of 512 rows
  cover the 32768 rows, so each array ends holding that function; and the run restated with both arrays named.
-/
import proofs.«411716_j11845519802781_3_alg».proof.Proof.KernelEntry
import proofs.«411716_j11845519802781_3_alg».proof.Proof.CellBridge
import Idealize.ShloMosaic.Lib.Pipeline.Value

set_option maxRecDepth 16384

noncomputable section

namespace Cert.KernelIdeal.Result

open Cert.KernelIdeal Cert.KernelIdeal.Gen Cert.KernelIdeal.Fr Cert.KernelIdeal.Cell Cert.KernelIdeal.Entry
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Which block each window reads at point t -/

theorem hz : (![0, 0] : Fin 2 → Nat) = fun _ => 0 := funext fun a => by fin_cases a <;> rfl

/-- The batch-tiled windows (x, h, c and the two results) move down one block of rows per point; the resident
    operands stay at block (0, 0). Decided over the 64 points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block is row 512 t + p of the batch. -/
def brow (t : Fin cfg0.N) (p : Fin 512) : Fin 32768 :=
  ⟨512 * t.val + p.val, by have h : t.val < 64 := lt_of_lt_of_eq t.isLt N_0; omega⟩

/-! ## The blocks read, at an entry -/

theorem xrow_at (c : Dev nD) (t : Fin cfg0.N) (p : Fin 512) (k : Fin 512) :
    (iblk m c 0 t : S512x512.Idx → EReal) (ix2 p k) = (m ((c : Thread nD τ).loc main_arg0)) (ix2 (brow t p) k) := by
  obtain ⟨e0, e1, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega

theorem hrow_at (c : Dev nD) (t : Fin cfg0.N) (p : Fin 512) (k : Fin 512) :
    (iblk m c 1 t : S512x512.Idx → EReal) (ix2 p k) = (m ((c : Thread nD τ).loc main_arg1)) (ix2 (brow t p) k) := by
  obtain ⟨-, -, e0, e1, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega

theorem cent_at (c : Dev nD) (t : Fin cfg0.N) (p q : Fin 512) :
    (iblk m c 2 t : S512x512.Idx → EReal) (ix2 p q) = (m ((c : Thread nD τ).loc main_arg2)) (ix2 (brow t p) q) := by
  obtain ⟨-, -, -, -, e0, e1, -⟩ := idx_facts t
  show V m c main_arg2 (((cfg0.win 2).blk t).view.emb (ix2 p q)) = _
  rw [V_main_arg2]
  refine congrArg _ (funext fun a => Fin.ext ?_)
  match a with
  | ⟨0, _⟩ => show win0_2.index t (0 : Fin 2) * 512 + 1 * p.val = 512 * t.val + p.val; omega
  | ⟨1, _⟩ => show win0_2.index t (1 : Fin 2) * 512 + 1 * q.val = q.val; omega

/-- Entry q of a 512-vector, as an extended real. -/
abbrev entry1 (v : S512.Idx → EReal) (q : Fin 512) : EReal := v (ix1 q)

/-- The resident x-weight operand's block at any point is the whole operand. -/
theorem wx_blk (c : Dev nD) (t : Fin cfg0.N) (k : Fin 512) (j : Fin 2048) :
    (iblk m c 3 t : S512x2048.Idx → EReal) (ix2 k j) = (V m c main_v1 : S512x2048.Idx → EReal) (ix2 k j) := by
  obtain ⟨-, -, -, -, -, -, e0, e1, -⟩ := idx_facts t
  show V m c main_v1 (((cfg0.win 3).blk t).view.emb (ix2 k j)) = _
  refine congrArg _ (funext fun a => Fin.ext ?_)
  match a with
  | ⟨0, _⟩ => show win0_3.index t (0 : Fin 2) * 512 + 1 * k.val = k.val; omega
  | ⟨1, _⟩ => show win0_3.index t (1 : Fin 2) * 2048 + 1 * j.val = j.val; omega

theorem wh_blk (c : Dev nD) (t : Fin cfg0.N) (k : Fin 512) (j : Fin 2048) :
    (iblk m c 4 t : S512x2048.Idx → EReal) (ix2 k j) = (V m c main_v3 : S512x2048.Idx → EReal) (ix2 k j) := by
  obtain ⟨-, -, -, -, -, -, -, -, e0, e1, -⟩ := idx_facts t
  show V m c main_v3 (((cfg0.win 4).blk t).view.emb (ix2 k j)) = _
  refine congrArg _ (funext fun a => Fin.ext ?_)
  match a with
  | ⟨0, _⟩ => show win0_4.index t (0 : Fin 2) * 512 + 1 * k.val = k.val; omega
  | ⟨1, _⟩ => show win0_4.index t (1 : Fin 2) * 2048 + 1 * j.val = j.val; omega

theorem b_blk (c : Dev nD) (t : Fin cfg0.N) (j : Fin 2048) :
    (iblk m c 5 t : S1x2048.Idx → EReal) (ix2 0 j) = (V m c main_v9 : S1x2048.Idx → EReal) (ix2 0 j) := by
  obtain ⟨-, -, -, -, -, -, -, -, -, -, e0, e1, -⟩ := idx_facts t
  show V m c main_v9 (((cfg0.win 5).blk t).view.emb (ix2 0 j)) = _
  refine congrArg _ (funext fun a => Fin.ext ?_)
  match a with
  | ⟨0, _⟩ => show win0_5.index t (0 : Fin 2) * 1 + 1 * 0 = 0; omega
  | ⟨1, _⟩ => show win0_5.index t (1 : Fin 2) * 2048 + 1 * j.val = j.val; omega

/-- Column 512·0 + q of the x-weight operand is column q of gate 0's x-matrix; likewise the h-weights and the bias. -/
theorem wx_at0 (c : Dev nD) (t : Fin cfg0.N) (k q : Fin 512) :
    (iblk m c 3 t : S512x2048.Idx → EReal) (ix2 k (gcol 0 q)) = (m ((c : Thread nD τ).loc main_arg3)) (ix2 k q) := by
  rw [wx_blk, wx_entry]
  exact cols0_at _ _ _ _ k q
theorem wh_at0 (c : Dev nD) (t : Fin cfg0.N) (k q : Fin 512) :
    (iblk m c 4 t : S512x2048.Idx → EReal) (ix2 k (gcol 0 q)) = (m ((c : Thread nD τ).loc main_arg5)) (ix2 k q) := by
  rw [wh_blk, wh_entry]
  exact cols0_at _ _ _ _ k q
theorem bias_at0 (c : Dev nD) (t : Fin cfg0.N) (q : Fin 512) :
    (iblk m c 5 t : S1x2048.Idx → EReal) (ix2 0 (gcol 0 q)) = entry1 (m ((c : Thread nD τ).loc main_arg4)) q + entry1 (m ((c : Thread nD τ).loc main_arg6)) q := by
  rw [b_blk, b_entry, row_at]
  exact seg0_at _ _ _ _ q
/-- Column 512·1 + q of the x-weight operand is column q of gate 1's x-matrix; likewise the h-weights and the bias. -/
theorem wx_at1 (c : Dev nD) (t : Fin cfg0.N) (k q : Fin 512) :
    (iblk m c 3 t : S512x2048.Idx → EReal) (ix2 k (gcol 1 q)) = (m ((c : Thread nD τ).loc main_arg7)) (ix2 k q) := by
  rw [wx_blk, wx_entry]
  exact cols1_at _ _ _ _ k q
theorem wh_at1 (c : Dev nD) (t : Fin cfg0.N) (k q : Fin 512) :
    (iblk m c 4 t : S512x2048.Idx → EReal) (ix2 k (gcol 1 q)) = (m ((c : Thread nD τ).loc main_arg9)) (ix2 k q) := by
  rw [wh_blk, wh_entry]
  exact cols1_at _ _ _ _ k q
theorem bias_at1 (c : Dev nD) (t : Fin cfg0.N) (q : Fin 512) :
    (iblk m c 5 t : S1x2048.Idx → EReal) (ix2 0 (gcol 1 q)) = entry1 (m ((c : Thread nD τ).loc main_arg8)) q + entry1 (m ((c : Thread nD τ).loc main_arg10)) q := by
  rw [b_blk, b_entry, row_at]
  exact seg1_at _ _ _ _ q
/-- Column 512·2 + q of the x-weight operand is column q of gate 2's x-matrix; likewise the h-weights and the bias. -/
theorem wx_at2 (c : Dev nD) (t : Fin cfg0.N) (k q : Fin 512) :
    (iblk m c 3 t : S512x2048.Idx → EReal) (ix2 k (gcol 2 q)) = (m ((c : Thread nD τ).loc main_arg11)) (ix2 k q) := by
  rw [wx_blk, wx_entry]
  exact cols2_at _ _ _ _ k q
theorem wh_at2 (c : Dev nD) (t : Fin cfg0.N) (k q : Fin 512) :
    (iblk m c 4 t : S512x2048.Idx → EReal) (ix2 k (gcol 2 q)) = (m ((c : Thread nD τ).loc main_arg13)) (ix2 k q) := by
  rw [wh_blk, wh_entry]
  exact cols2_at _ _ _ _ k q
theorem bias_at2 (c : Dev nD) (t : Fin cfg0.N) (q : Fin 512) :
    (iblk m c 5 t : S1x2048.Idx → EReal) (ix2 0 (gcol 2 q)) = entry1 (m ((c : Thread nD τ).loc main_arg12)) q + entry1 (m ((c : Thread nD τ).loc main_arg14)) q := by
  rw [b_blk, b_entry, row_at]
  exact seg2_at _ _ _ _ q
/-- Column 512·3 + q of the x-weight operand is column q of gate 3's x-matrix; likewise the h-weights and the bias. -/
theorem wx_at3 (c : Dev nD) (t : Fin cfg0.N) (k q : Fin 512) :
    (iblk m c 3 t : S512x2048.Idx → EReal) (ix2 k (gcol 3 q)) = (m ((c : Thread nD τ).loc main_arg15)) (ix2 k q) := by
  rw [wx_blk, wx_entry]
  exact cols3_at _ _ _ _ k q
theorem wh_at3 (c : Dev nD) (t : Fin cfg0.N) (k q : Fin 512) :
    (iblk m c 4 t : S512x2048.Idx → EReal) (ix2 k (gcol 3 q)) = (m ((c : Thread nD τ).loc main_arg17)) (ix2 k q) := by
  rw [wh_blk, wh_entry]
  exact cols3_at _ _ _ _ k q
theorem bias_at3 (c : Dev nD) (t : Fin cfg0.N) (q : Fin 512) :
    (iblk m c 5 t : S1x2048.Idx → EReal) (ix2 0 (gcol 3 q)) = entry1 (m ((c : Thread nD τ).loc main_arg16)) q + entry1 (m ((c : Thread nD τ).loc main_arg18)) q := by
  rw [b_blk, b_entry, row_at]
  exact seg3_at _ _ _ _ q

/-! ## What each point writes back -/

/-- The reference's two results as functions of the kernel's argument arrays. -/
abbrev hidden (c : Dev nD) : Cert.ReferenceIdeal.S32768x512.Idx → EReal :=
  Cert.ReferenceIdeal.Cell.hiddenNext (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
abbrev cell (c : Dev nD) : Cert.ReferenceIdeal.S32768x512.Idx → EReal :=
  Cert.ReferenceIdeal.Cell.cellNext (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))

/-- Entry (p, q) of a result window's block at point t is entry (512 t + p, q) of its array. -/
theorem emb6 (t : Fin cfg0.N) (p q : Fin 512) : ((cfg0.win 6).blk t).view.emb (ix2 p q) = ix2 (brow t p) q := by
  obtain ⟨-, -, -, -, -, -, -, -, -, -, -, -, e0, e1, -⟩ := idx_facts t
  refine funext fun a => Fin.ext ?_
  match a with
  | ⟨0, _⟩ => show win0_6.index t (0 : Fin 2) * 512 + 1 * p.val = 512 * t.val + p.val; omega
  | ⟨1, _⟩ => show win0_6.index t (1 : Fin 2) * 512 + 1 * q.val = q.val; omega
theorem emb7 (t : Fin cfg0.N) (p q : Fin 512) : ((cfg0.win 7).blk t).view.emb (ix2 p q) = ix2 (brow t p) q := by
  obtain ⟨-, -, -, -, -, -, -, -, -, -, -, -, -, -, e0, e1⟩ := idx_facts t
  refine funext fun a => Fin.ext ?_
  match a with
  | ⟨0, _⟩ => show win0_7.index t (0 : Fin 2) * 512 + 1 * p.val = 512 * t.val + p.val; omega
  | ⟨1, _⟩ => show win0_7.index t (1 : Fin 2) * 512 + 1 * q.val = q.val; omega

theorem flushed6_eq (c : Dev nD) (t : Fin cfg0.N) :
    (dats m 0 c).flushed 6 t = ((cfg0.win 6).blk t).view.read (Elt Ideal) (hidden m c) := by
  show (cfg0.win 6).cut (grid0.coords t) ((dats m 0 c).after 6 t) = _
  rw [after0_6]
  unfold out0_6
  rw [View.canon_unit_zero hz]
  simp only [View.ld_unit_zero (S := S512x512) hz, View.ld_unit_zero (S := S512x2048) hz, View.ld_unit_zero (S := S1x2048) hz]
  funext y
  obtain ⟨p, q, rfl⟩ : ∃ (p : Fin 512) (q : Fin 512), y = ix2 p q := ⟨y 0, y 1, eq_ix2 y⟩
  show k0_pay3 (F := Ideal) (iblk m c 0 t) (iblk m c 1 t) (iblk m c 2 t) (iblk m c 3 t) (iblk m c 4 t) (iblk m c 5 t) (ix2 p q) = hidden m c (((cfg0.win 6).blk t).view.emb (ix2 p q))
  rw [emb6]
  exact (Cert.Bridge.stored_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (iblk m c 0 t) (iblk m c 1 t) (iblk m c 2 t) (iblk m c 3 t) (iblk m c 4 t) (iblk m c 5 t) (brow t p) p q
      (xrow_at m c t p) (hrow_at m c t p) (cent_at m c t p q)
      (fun k => wx_at0 m c t k q) (fun k => wh_at0 m c t k q) (bias_at0 m c t q)
      (fun k => wx_at1 m c t k q) (fun k => wh_at1 m c t k q) (bias_at1 m c t q)
      (fun k => wx_at2 m c t k q) (fun k => wh_at2 m c t k q) (bias_at2 m c t q)
      (fun k => wx_at3 m c t k q) (fun k => wh_at3 m c t k q) (bias_at3 m c t q)).2

theorem flushed7_eq (c : Dev nD) (t : Fin cfg0.N) :
    (dats m 0 c).flushed 7 t = ((cfg0.win 7).blk t).view.read (Elt Ideal) (cell m c) := by
  show (cfg0.win 7).cut (grid0.coords t) ((dats m 0 c).after 7 t) = _
  rw [after0_7]
  unfold out0_7
  rw [View.canon_unit_zero hz]
  simp only [View.ld_unit_zero (S := S512x512) hz, View.ld_unit_zero (S := S512x2048) hz, View.ld_unit_zero (S := S1x2048) hz]
  funext y
  obtain ⟨p, q, rfl⟩ : ∃ (p : Fin 512) (q : Fin 512), y = ix2 p q := ⟨y 0, y 1, eq_ix2 y⟩
  show k0_pay2 (F := Ideal) (iblk m c 0 t) (iblk m c 1 t) (iblk m c 2 t) (iblk m c 3 t) (iblk m c 4 t) (iblk m c 5 t) (ix2 p q) = cell m c (((cfg0.win 7).blk t).view.emb (ix2 p q))
  rw [emb7]
  exact (Cert.Bridge.stored_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (iblk m c 0 t) (iblk m c 1 t) (iblk m c 2 t) (iblk m c 3 t) (iblk m c 4 t) (iblk m c 5 t) (brow t p) p q
      (xrow_at m c t p) (hrow_at m c t p) (cent_at m c t p q)
      (fun k => wx_at0 m c t k q) (fun k => wh_at0 m c t k q) (bias_at0 m c t q)
      (fun k => wx_at1 m c t k q) (fun k => wh_at1 m c t k q) (bias_at1 m c t q)
      (fun k => wx_at2 m c t k q) (fun k => wh_at2 m c t k q) (bias_at2 m c t q)
      (fun k => wx_at3 m c t k q) (fun k => wh_at3 m c t k q) (bias_at3 m c t q)).1

/-! ## The 64 blocks cover the 32768 rows -/

theorem mem_blk6 (t : Fin cfg0.N) (i : S32768x512.Idx) :
    i ∈ ((cfg0.win 6).blk t).view.set ↔ ∀ a : Fin 2, win0_6.index t a * S512x512.size a ≤ (i a).val ∧ (i a).val < win0_6.index t a * S512x512.size a + S512x512.size a := by
  show i ∈ ((View.whole main_v10_0).slice (win0_6.rect t)).set ↔ _
  rw [View.set_slice_whole, Rect.mem_set_unit]
  exact Iff.rfl
theorem mem_blk7 (t : Fin cfg0.N) (i : S32768x512.Idx) :
    i ∈ ((cfg0.win 7).blk t).view.set ↔ ∀ a : Fin 2, win0_7.index t a * S512x512.size a ≤ (i a).val ∧ (i a).val < win0_7.index t a * S512x512.size a + S512x512.size a := by
  show i ∈ ((View.whole main_v10_1).slice (win0_7.rect t)).set ↔ _
  rw [View.set_slice_whole, Rect.mem_set_unit]
  exact Iff.rfl

/-- Row r lies in the block of point r / 512. -/
def pointOf (i : S32768x512.Idx) : Fin cfg0.N :=
  ⟨(i 0).val / 512, by have h : (i 0).val < 32768 := (i 0).isLt; rw [show cfg0.N = 64 from N_0]; omega⟩

theorem cover6 (i : S32768x512.Idx) : ∃ t : Fin cfg0.N, (cfg0.win 6).flush t = true ∧ i ∈ ((cfg0.win 6).blk t).view.set := by
  refine ⟨pointOf i, flush0_6 _, ?_⟩
  obtain ⟨-, -, -, -, -, -, -, -, -, -, -, -, e0, e1, -⟩ := idx_facts (pointOf i)
  have hv : (pointOf i).val = (i 0).val / 512 := rfl
  have h0 : (i 0).val < 32768 := (i 0).isLt
  have h1 : (i 1).val < 512 := (i 1).isLt
  rw [mem_blk6]
  intro a
  match a with
  | ⟨0, _⟩ => show win0_6.index (pointOf i) (0 : Fin 2) * 512 ≤ (i 0).val ∧ (i 0).val < win0_6.index (pointOf i) (0 : Fin 2) * 512 + 512; omega
  | ⟨1, _⟩ => show win0_6.index (pointOf i) (1 : Fin 2) * 512 ≤ (i 1).val ∧ (i 1).val < win0_6.index (pointOf i) (1 : Fin 2) * 512 + 512; omega

theorem cover7 (i : S32768x512.Idx) : ∃ t : Fin cfg0.N, (cfg0.win 7).flush t = true ∧ i ∈ ((cfg0.win 7).blk t).view.set := by
  refine ⟨pointOf i, flush0_7 _, ?_⟩
  obtain ⟨-, -, -, -, -, -, -, -, -, -, -, -, -, -, e0, e1⟩ := idx_facts (pointOf i)
  have hv : (pointOf i).val = (i 0).val / 512 := rfl
  have h0 : (i 0).val < 32768 := (i 0).isLt
  have h1 : (i 1).val < 512 := (i 1).isLt
  rw [mem_blk7]
  intro a
  match a with
  | ⟨0, _⟩ => show win0_7.index (pointOf i) (0 : Fin 2) * 512 ≤ (i 0).val ∧ (i 0).val < win0_7.index (pointOf i) (0 : Fin 2) * 512 + 512; omega
  | ⟨1, _⟩ => show win0_7.index (pointOf i) (1 : Fin 2) * 512 ≤ (i 1).val ∧ (i 1).val < win0_7.index (pointOf i) (1 : Fin 2) * 512 + 512; omega

/-! ## The arrays after the run, and the run restated -/

theorem final6 (c : Dev nD) : (dats m 0 c).arrAt 6 cfg0.N = hidden m c :=
  (dats m 0 c).arrAt_eq_of_cover 6 (hidden m c) (fun t _ => flushed6_eq m c t) cover6
theorem final7 (c : Dev nD) : (dats m 0 c).arrAt 7 cfg0.N = cell m c :=
  (dats m 0 c).arrAt_eq_of_cover 7 (cell m c) (fun t _ => flushed7_eq m c t) cover7

/-- Every weakly fair execution terminates with the first result at the next hidden state and the second at the
    next cell state of the argument arrays, which end as launched. -/
theorem run : θ_run defs (onTc (τ := τ) (main (F := Ideal))) ⟨m, fun _ => 0, ρ⟩ (fun r => ∀ c : Dev nD,
      r.2.mem ((c.tc : Thread nD τ).loc main_v10_0) = hidden m c
      ∧ r.2.mem ((c.tc : Thread nD τ).loc main_v10_1) = cell m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨((h c).1 6).trans (final6 m c), ((h c).1 7).trans (final7 m c),
      args_of_post m (dats m) (A_eq m) r h c⟩) (run_main m ρ)

end Cert.KernelIdeal.Result

end
-- ==== Proof.lean ====
/-
  An LSTM cell over a batch of 32768 rows with 512 inputs and 512 hidden units. The kernel puts the four gates'
  x-weights side by side and likewise the h-weights (narrowed to bf16, which changes no extended real), sums each
  gate's two biases on the host, and per block of 512 rows computes s = x̂·Wx + ĥ·Wh + b, cuts it into the gates
  i, f, g, o, and stores c' = σ(f)·c + σ(i)·tanh(g) and h' = σ(o)·tanh(c'). The reference computes each gate as
  x·W_x + b_x + h·W_h + b_h and spells σ as 1 / (1 + e^(−z)). Entry by entry the two pre-activations differ only in
  the order in which four extended reals are added, and σ is one function in both spellings; so both results
  agree on every input, finite or not. The three frames: the kernel's programs by the launch-side module (one
  text for the word-level and the idealized program), the reference's by its run.
-/
import proofs.«411716_j11845519802781_3_alg».proof.Defs
import proofs.«411716_j11845519802781_3_alg».proof.Proof.Gen.Kernel
import proofs.«411716_j11845519802781_3_alg».proof.Proof.Gen.KernelIdeal
import proofs.«411716_j11845519802781_3_alg».proof.Proof.Gen.ReferenceIdeal
import proofs.«411716_j11845519802781_3_alg».proof.Proof.Gen.Pre_finite_inputs
import proofs.«411716_j11845519802781_3_alg».proof.Proof.Gen.ReferenceIdeal.Run
import proofs.«411716_j11845519802781_3_alg».proof.Proof.Gen.ReferenceIdeal.Read
import proofs.«411716_j11845519802781_3_alg».proof.Proof.KernelFrame
import proofs.«411716_j11845519802781_3_alg».proof.Proof.KernelIdealFrame
import proofs.«411716_j11845519802781_3_alg».proof.Proof.KernelValue
import proofs.«411716_j11845519802781_3_alg».proof.Proof.RefCell
import Idealize.ShloMosaic.Adequacy
import Idealize.ShloMosaic.Init

noncomputable section

namespace Cert.Proof

open Idealize.ShloMosaic Idealize.SL.Sem

/-- The word-level kernel program runs and leaves its nineteen argument arrays as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is a straight line of host operations: its run, with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealized kernel is the kernel's own text read on extended reals: nothing was rewritten. -/
theorem preserves : Cert.preserves_Kernel_KernelIdeal := trivial

/-- From memories that agree on the arguments, the kernel's two result arrays end at the reference's next hidden
    state and next cell state of those arguments, and the reference's own run ends at the same two terms. -/
theorem algebraic : Cert.algebraic_KernelIdeal_ReferenceIdeal := by
  intro m ρ m' ρ' _ hagree
  refine ⟨fun c => Cert.KernelIdeal.Result.hidden m c, fun c => Cert.KernelIdeal.Result.cell m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [a0, a1, a2, a3, a4, a5, a6, a7, a8, a9, a10, a11, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
